-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S1000000 : Shape := ⟨1, ![1000000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg17 : FVec F S64 .f32) (main_arg18 : FVec F S64x64 .f32) (main_arg19 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg17
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg18
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg19
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg13 : FVec F S64 .f32) (main_arg14 : FVec F S64x64 .f32) (main_arg15 : FVec F S64 .f32) (main_arg16 : FVec F S64x64 .f32) (main_arg17 : FVec F S64 .f32) (main_arg18 : FVec F S64x64 .f32) (main_arg19 : FVec F S64 .f32) (main_v33 : IVec S_ 1) : IVec S_ 1 :=
  let main_v34 : FVec F S64 .f32 := Host.absf main_arg13
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg14
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg15
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg16
  let main_cst_18 : FVec F S_ .f32 := constant S_ .f32 0x7F800000#32
  let main_v50 : FVec F S64x64 .f32 := broadcastInDim S64x64 ![] bcast_S_S64x64 main_cst_18
  fn_part3 (F := F) main_arg17 main_arg18 main_arg19 main_v48 main_v49 main_v50

def fn_part1 {F : FTy → Type} [FloatOps F] (main_arg10 : FVec F S64x64 .f32) (main_arg11 : FVec F S64 .f32) (main_arg12 : FVec F S64x64 .f32) (main_arg13 : FVec F S64 .f32) (main_arg14 : FVec F S64x64 .f32) (main_arg15 : FVec F S64 .f32) (main_arg16 : FVec F S64x64 .f32) (main_arg17 : FVec F S64 .f32) (main_arg18 : FVec F S64x64 .f32) (main_arg19 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg10
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg11
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg12
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg13 main_arg14 main_arg15 main_arg16 main_arg17 main_arg18 main_arg19 main_v33

def fn {F : FTy → Type} [FloatOps F] (main_arg0 : FVec F S100000x64 .f32) (main_arg1 : FVec F S50000x64 .f32) (main_arg2 : IVec S1000000 32) (main_arg3 : IVec S1000000 32) (main_arg4 : IVec S1000000 32) (main_arg5 : IVec S1000000 32) (main_arg6 : IVec S1000000 32) (main_arg7 : IVec S1000000 32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_arg16 : FVec F S64x64 .f32) (main_arg17 : FVec F S64 .f32) (main_arg18 : FVec F S64x64 .f32) (main_arg19 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S64x64 .f32 := Host.absf main_arg8
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg9
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg10 main_arg11 main_arg12 main_arg13 main_arg14 main_arg15 main_arg16 main_arg17 main_arg18 main_arg19 main_v13 main_v16
-- ==== Kernel.lean ====
abbrev S100000x64 : Shape := ⟨2, ![100000, 64]⟩
abbrev S50000x64 : Shape := ⟨2, ![50000, 64]⟩
abbrev S1000000 : Shape := ⟨1, ![1000000]⟩
abbrev S64x64 : Shape := ⟨2, ![64, 64]⟩
abbrev S64 : Shape := ⟨1, ![64]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩
abbrev S10000x64 : Shape := ⟨2, ![10000, 64]⟩

abbrev nBuf : Space → Nat
  | .hbm => 76
  | .vmem => 38
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S1000000, .i32⟩
  | .hbm, ⟨3, _⟩ => ⟨S1000000, .i32⟩
  | .hbm, ⟨4, _⟩ => ⟨S1000000, .i32⟩
  | .hbm, ⟨5, _⟩ => ⟨S1000000, .i32⟩
  | .hbm, ⟨6, _⟩ => ⟨S1000000, .i32⟩
  | .hbm, ⟨7, _⟩ => ⟨S1000000, .i32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x64, .f32⟩
  | .hbm, ⟨17, _⟩ => ⟨S64, .f32⟩
  | .hbm, ⟨18, _⟩ => ⟨S64x64, .f32⟩
  | .hbm, ⟨19, _⟩ => ⟨S64, .f32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000x64, .f32⟩
  | .hbm, ⟨29, _⟩ => ⟨S_, .i32⟩
  | .hbm, ⟨30, _⟩ => ⟨S1000000, .i32⟩
  | .hbm, ⟨31, _⟩ => ⟨S1000000, .i1⟩
  | .hbm, ⟨32, _⟩ => ⟨S_, .i32⟩
  | .hbm, ⟨33, _⟩ => ⟨S1000000, .i32⟩
  | .hbm, ⟨34, _⟩ => ⟨S1000000, .i32⟩
  | .hbm, ⟨35, _⟩ => ⟨S1000000, .i32⟩
  | .hbm, ⟨36, _⟩ => ⟨S1000000x1, .i32⟩
  | .hbm, ⟨37, _⟩ => ⟨S1000000x64, .f32⟩
  | .hbm, ⟨38, _⟩ => ⟨S_, .i32⟩
  | .hbm, ⟨39, _⟩ => ⟨S1000000, .i32⟩
  | .hbm, ⟨40, _⟩ => ⟨S1000000, .i1⟩
  | .hbm, ⟨41, _⟩ => ⟨S_, .i32⟩
  | .hbm, ⟨42, _⟩ => ⟨S1000000, .i32⟩
  | .hbm, ⟨43, _⟩ => ⟨S1000000, .i32⟩
  | .hbm, ⟨44, _⟩ => ⟨S1000000, .i32⟩
  | .hbm, ⟨45, _⟩ => ⟨S1000000x1, .i32⟩
  | .hbm, ⟨46, _⟩ => ⟨S1000000x64, .f32⟩
  | .hbm, ⟨47, _⟩ => ⟨S64x64, .f32⟩
  | .hbm, ⟨48, _⟩ => ⟨S64x64, .f32⟩
  | .hbm, ⟨49, _⟩ => ⟨S64x64, .f32⟩
  | .hbm, ⟨50, _⟩ => ⟨S64x64, .f32⟩
  | .hbm, ⟨51, _⟩ => ⟨S64x64, .f32⟩
  | .hbm, ⟨52, _⟩ => ⟨S64x64, .f32⟩
  | .hbm, ⟨53, _⟩ => ⟨S1x64, .f32⟩
  | .hbm, ⟨54, _⟩ => ⟨S1x64, .f32⟩
  | .hbm, ⟨55, _⟩ => ⟨S1x64, .f32⟩
  | .hbm, ⟨56, _⟩ => ⟨S1x64, .f32⟩
  | .hbm, ⟨57, _⟩ => ⟨S1x64, .f32⟩
  | .hbm, ⟨58, _⟩ => ⟨S1x64, .f32⟩
  | .hbm, ⟨59, _⟩ => ⟨S1000000x64, .f32⟩
  | .hbm, ⟨60, _⟩ => ⟨S1000000x64, .f32⟩
  | .hbm, ⟨61, _⟩ => ⟨S1000000x64, .f32⟩
  | .hbm, ⟨62, _⟩ => ⟨S_, .f32⟩
  | .hbm, ⟨63, _⟩ => ⟨S100000x64, .f32⟩
  | .hbm, ⟨64, _⟩ => ⟨S1000000x1, .i32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S1000000x1, .i32⟩
  | .hbm, ⟨69, _⟩ => ⟨S100000x64, .f32⟩
  | .hbm, ⟨70, _⟩ => ⟨S_, .f32⟩
  | .hbm, ⟨71, _⟩ => ⟨S100000x64, .f32⟩
  | .hbm, ⟨72, _⟩ => ⟨S1000000x1, .i32⟩
  | .hbm, ⟨73, _⟩ => ⟨S100000x64, .f32⟩
  | .hbm, ⟨74, _⟩ => ⟨S100000x64, .f32⟩
  | .hbm, ⟨75, _⟩ => ⟨S50000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S64x64, .f32⟩
  | .local _ .vmem, ⟨27, _⟩ => ⟨S1x64, .f32⟩
  | .local _ .vmem, ⟨28, _⟩ => ⟨S64x64, .f32⟩
  | .local _ .vmem, ⟨29, _⟩ => ⟨S1x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S64x64, .f32⟩
  | .local _ .vmem, ⟨35, _⟩ => ⟨S1x64, .f32⟩
  | .local _ .vmem, ⟨36, _⟩ => ⟨S10000x64, .f32⟩
  | .local _ .vmem, ⟨37, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_1 : Ref sig .tc := ⟨.hbm, 29, rfl⟩
abbrev main_v7 : Ref sig .tc := ⟨.hbm, 30, rfl⟩
abbrev main_v8 : Ref sig .tc := ⟨.hbm, 31, rfl⟩
abbrev main_c_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c_3 : Ref sig .tc := ⟨.hbm, 38, rfl⟩
abbrev main_v14 : Ref sig .tc := ⟨.hbm, 39, rfl⟩
abbrev main_v15 : Ref sig .tc := ⟨.hbm, 40, rfl⟩
abbrev main_c_4 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33_0 : Ref sig .tc := ⟨.hbm, 59, rfl⟩
abbrev main_v33_1 : Ref sig .tc := ⟨.hbm, 60, rfl⟩
abbrev main_v33_2 : Ref sig .tc := ⟨.hbm, 61, rfl⟩
abbrev main_cst : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_5 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_6 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg8_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg2_0 : Ref sig .tc := ⟨.vmem, 35, rfl⟩
abbrev cc2_stg3_0 : Ref sig .tc := ⟨.vmem, 36, rfl⟩
abbrev cc2_stg3_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem8_0 : DmaSem sig := 30
abbrev cc1_sem8_1 : DmaSem sig := 31
abbrev cc2_sem0_0 : DmaSem sig := 32
abbrev cc2_sem0_1 : DmaSem sig := 33
abbrev cc2_sem1_0 : DmaSem sig := 34
abbrev cc2_sem2_0 : DmaSem sig := 35
abbrev cc2_sem3_0 : DmaSem sig := 36
abbrev cc2_sem3_1 : DmaSem sig := 37

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S10000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S10000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S10000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S10000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  transposes_S64x64_S64x64_1_0 : S64x64.Transposes [1, 0] S64x64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S100000x64 : S_.BroadcastsInDim S100000x64 (![] : Fin 0 → Fin S100000x64.rank)
  gather_S100000x64_S1000000x1_S1000000x64_1_0_n_n_0_1_164_wf : GatherDims.WF S100000x64 S1000000x1 S1000000x64 [1] [0] [] [0] [] 1 ![1, 64]
  gather_S50000x64_S1000000x1_S1000000x64_1_0_n_n_0_1_164_wf : GatherDims.WF S50000x64 S1000000x1 S1000000x64 [1] [0] [] [0] [] 1 ![1, 64]
  dot_S10000x64_S64x64_S10000x64_1_0_0_1_n_n_wf : DotDims.WF S10000x64 S64x64 S10000x64 [1] [0] [0] [1] [] []
  scatter_S100000x64_S1000000x1_S1000000x64_1_0_0_1_wf : ScatterDims.WF S100000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1000000x64.size a
  hwx0_0 : ∀ i : grid0.Coords, EltTy.bits .f32 = 32 ∨ (Rect.block (s := S1000000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S1000000x64.size a
  hwx0_1 : ∀ i : grid0.Coords, EltTy.bits .f32 = 32 ∨ (Rect.block (s := S1000000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S1000000x64.size a
  hwx0_2 : ∀ i : grid0.Coords, EltTy.bits .f32 = 32 ∨ (Rect.block (s := S1000000x64) S10000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S10000x64.size a ≤ S1000000x64.size a
  hwx0_9 : ∀ i : grid0.Coords, EltTy.bits .f32 = 32 ∨ (Rect.block (s := S1000000x64) S10000x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S10000x64.size a ≤ S1000000x64.size a
  hwx0_10 : ∀ i : grid0.Coords, EltTy.bits .f32 = 32 ∨ (Rect.block (s := S1000000x64) S10000x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S10000x64.size a ≤ S1000000x64.size a
  hwx0_11 : ∀ i : grid0.Coords, EltTy.bits .f32 = 32 ∨ (Rect.block (s := S1000000x64) S10000x64.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S10000x64.size a ≤ S100000x64.size a
  hwx1_8 : ∀ i : grid1.Coords, EltTy.bits .f32 = 32 ∨ (Rect.block (s := S100000x64) S10000x64.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S50000x64.size a
  hwx2_3 : ∀ i : grid2.Coords, EltTy.bits .f32 = 32 ∨ (Rect.block (s := S50000x64) S10000x64.size (cc2_transform_3 i) (hinb2_3 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

abbrev win0_0 : Pipeline.Window sig grid0 :=
  Pipeline.Window.ofSpec (Memref.whole main_v6) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v33_0) S10000x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v33_1) S10000x64.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v33_2) S10000x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S10000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S10000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v24) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v43) S10000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_arg1) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S1000000 : Shape := ⟨1, ![1000000]⟩
abbrev S64x64 : Shape := ⟨2, ![64, 64]⟩
abbrev S64 : Shape := ⟨1, ![64]⟩
abbrev S1x64 : Shape := ⟨2, ![1, 64]⟩
abbrev S_ : Shape := ⟨0, ![]⟩
abbrev S1000000x1 : Shape := ⟨2, ![1000000, 1]⟩
abbrev S1000000x64 : Shape := ⟨2, ![1000000, 64]⟩

abbrev nBuf : Space → Nat
  | .hbm => 107
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S1000000, .i32⟩
  | .hbm, ⟨3, _⟩ => ⟨S1000000, .i32⟩
  | .hbm, ⟨4, _⟩ => ⟨S1000000, .i32⟩
  | .hbm, ⟨5, _⟩ => ⟨S1000000, .i32⟩
  | .hbm, ⟨6, _⟩ => ⟨S1000000, .i32⟩
  | .hbm, ⟨7, _⟩ => ⟨S1000000, .i32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x64, .f32⟩
  | .hbm, ⟨17, _⟩ => ⟨S64, .f32⟩
  | .hbm, ⟨18, _⟩ => ⟨S64x64, .f32⟩
  | .hbm, ⟨19, _⟩ => ⟨S64, .f32⟩
  | .hbm, ⟨20, _⟩ => ⟨S64x64, .f32⟩
  | .hbm, ⟨21, _⟩ => ⟨S100000x64, .f32⟩
  | .hbm, ⟨22, _⟩ => ⟨S1x64, .f32⟩
  | .hbm, ⟨23, _⟩ => ⟨S100000x64, .f32⟩
  | .hbm, ⟨24, _⟩ => ⟨S100000x64, .f32⟩
  | .hbm, ⟨25, _⟩ => ⟨S_, .f32⟩
  | .hbm, ⟨26, _⟩ => ⟨S100000x64, .f32⟩
  | .hbm, ⟨27, _⟩ => ⟨S100000x64, .f32⟩
  | .hbm, ⟨28, _⟩ => ⟨S_, .i32⟩
  | .hbm, ⟨29, _⟩ => ⟨S1000000, .i32⟩
  | .hbm, ⟨30, _⟩ => ⟨S1000000, .i1⟩
  | .hbm, ⟨31, _⟩ => ⟨S_, .i32⟩
  | .hbm, ⟨32, _⟩ => ⟨S1000000, .i32⟩
  | .hbm, ⟨33, _⟩ => ⟨S1000000, .i32⟩
  | .hbm, ⟨34, _⟩ => ⟨S1000000, .i32⟩
  | .hbm, ⟨35, _⟩ => ⟨S1000000x1, .i32⟩
  | .hbm, ⟨36, _⟩ => ⟨S1000000x64, .f32⟩
  | .hbm, ⟨37, _⟩ => ⟨S64x64, .f32⟩
  | .hbm, ⟨38, _⟩ => ⟨S1000000x64, .f32⟩
  | .hbm, ⟨39, _⟩ => ⟨S1x64, .f32⟩
  | .hbm, ⟨40, _⟩ => ⟨S1000000x64, .f32⟩
  | .hbm, ⟨41, _⟩ => ⟨S1000000x64, .f32⟩
  | .hbm, ⟨42, _⟩ => ⟨S_, .f32⟩
  | .hbm, ⟨43, _⟩ => ⟨S1000000x64, .f32⟩
  | .hbm, ⟨44, _⟩ => ⟨S1000000x64, .f32⟩
  | .hbm, ⟨45, _⟩ => ⟨S_, .f32⟩
  | .hbm, ⟨46, _⟩ => ⟨S100000x64, .f32⟩
  | .hbm, ⟨47, _⟩ => ⟨S1000000x1, .i32⟩
  | .hbm, ⟨48, _⟩ => ⟨S100000x64, .f32⟩
  | .hbm, ⟨49, _⟩ => ⟨S_, .i32⟩
  | .hbm, ⟨50, _⟩ => ⟨S1000000, .i32⟩
  | .hbm, ⟨51, _⟩ => ⟨S1000000, .i1⟩
  | .hbm, ⟨52, _⟩ => ⟨S_, .i32⟩
  | .hbm, ⟨53, _⟩ => ⟨S1000000, .i32⟩
  | .hbm, ⟨54, _⟩ => ⟨S1000000, .i32⟩
  | .hbm, ⟨55, _⟩ => ⟨S1000000, .i32⟩
  | .hbm, ⟨56, _⟩ => ⟨S1000000x1, .i32⟩
  | .hbm, ⟨57, _⟩ => ⟨S1000000x64, .f32⟩
  | .hbm, ⟨58, _⟩ => ⟨S64x64, .f32⟩
  | .hbm, ⟨59, _⟩ => ⟨S1000000x64, .f32⟩
  | .hbm, ⟨60, _⟩ => ⟨S1x64, .f32⟩
  | .hbm, ⟨61, _⟩ => ⟨S1000000x64, .f32⟩
  | .hbm, ⟨62, _⟩ => ⟨S1000000x64, .f32⟩
  | .hbm, ⟨63, _⟩ => ⟨S_, .f32⟩
  | .hbm, ⟨64, _⟩ => ⟨S1000000x64, .f32⟩
  | .hbm, ⟨65, _⟩ => ⟨S1000000x64, .f32⟩
  | .hbm, ⟨66, _⟩ => ⟨S_, .f32⟩
  | .hbm, ⟨67, _⟩ => ⟨S100000x64, .f32⟩
  | .hbm, ⟨68, _⟩ => ⟨S1000000x1, .i32⟩
  | .hbm, ⟨69, _⟩ => ⟨S100000x64, .f32⟩
  | .hbm, ⟨70, _⟩ => ⟨S_, .i32⟩
  | .hbm, ⟨71, _⟩ => ⟨S1000000, .i32⟩
  | .hbm, ⟨72, _⟩ => ⟨S1000000, .i1⟩
  | .hbm, ⟨73, _⟩ => ⟨S_, .i32⟩
  | .hbm, ⟨74, _⟩ => ⟨S1000000, .i32⟩
  | .hbm, ⟨75, _⟩ => ⟨S1000000, .i32⟩
  | .hbm, ⟨76, _⟩ => ⟨S1000000, .i32⟩
  | .hbm, ⟨77, _⟩ => ⟨S1000000x1, .i32⟩
  | .hbm, ⟨78, _⟩ => ⟨S1000000x64, .f32⟩
  | .hbm, ⟨79, _⟩ => ⟨S64x64, .f32⟩
  | .hbm, ⟨80, _⟩ => ⟨S1000000x64, .f32⟩
  | .hbm, ⟨81, _⟩ => ⟨S1x64, .f32⟩
  | .hbm, ⟨82, _⟩ => ⟨S1000000x64, .f32⟩
  | .hbm, ⟨83, _⟩ => ⟨S1000000x64, .f32⟩
  | .hbm, ⟨84, _⟩ => ⟨S_, .f32⟩
  | .hbm, ⟨85, _⟩ => ⟨S1000000x64, .f32⟩
  | .hbm, ⟨86, _⟩ => ⟨S1000000x64, .f32⟩
  | .hbm, ⟨87, _⟩ => ⟨S_, .f32⟩
  | .hbm, ⟨88, _⟩ => ⟨S100000x64, .f32⟩
  | .hbm, ⟨89, _⟩ => ⟨S1000000x1, .i32⟩
  | .hbm, ⟨90, _⟩ => ⟨S100000x64, .f32⟩
  | .hbm, ⟨91, _⟩ => ⟨S100000x64, .f32⟩
  | .hbm, ⟨92, _⟩ => ⟨S100000x64, .f32⟩
  | .hbm, ⟨93, _⟩ => ⟨S100000x64, .f32⟩
  | .hbm, ⟨94, _⟩ => ⟨S64x64, .f32⟩
  | .hbm, ⟨95, _⟩ => ⟨S100000x64, .f32⟩
  | .hbm, ⟨96, _⟩ => ⟨S1x64, .f32⟩
  | .hbm, ⟨97, _⟩ => ⟨S100000x64, .f32⟩
  | .hbm, ⟨98, _⟩ => ⟨S100000x64, .f32⟩
  | .hbm, ⟨99, _⟩ => ⟨S64x64, .f32⟩
  | .hbm, ⟨100, _⟩ => ⟨S50000x64, .f32⟩
  | .hbm, ⟨101, _⟩ => ⟨S1x64, .f32⟩
  | .hbm, ⟨102, _⟩ => ⟨S50000x64, .f32⟩
  | .hbm, ⟨103, _⟩ => ⟨S50000x64, .f32⟩
  | .hbm, ⟨104, _⟩ => ⟨S_, .f32⟩
  | .hbm, ⟨105, _⟩ => ⟨S50000x64, .f32⟩
  | .hbm, ⟨106, _⟩ => ⟨S50000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_call0_cst : Ref sig .tc := ⟨.hbm, 25, rfl⟩
abbrev main_call0_v0 : Ref sig .tc := ⟨.hbm, 26, rfl⟩
abbrev main_v5 : Ref sig .tc := ⟨.hbm, 27, rfl⟩
abbrev main_c : Ref sig .tc := ⟨.hbm, 28, rfl⟩
abbrev main_v6 : Ref sig .tc := ⟨.hbm, 29, rfl⟩
abbrev main_v7 : Ref sig .tc := ⟨.hbm, 30, rfl⟩
abbrev main_c_0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_call1_cst : Ref sig .tc := ⟨.hbm, 42, rfl⟩
abbrev main_call1_v0 : Ref sig .tc := ⟨.hbm, 43, rfl⟩
abbrev main_v18 : Ref sig .tc := ⟨.hbm, 44, rfl⟩
abbrev main_cst : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_1 : Ref sig .tc := ⟨.hbm, 49, rfl⟩
abbrev main_v22 : Ref sig .tc := ⟨.hbm, 50, rfl⟩
abbrev main_v23 : Ref sig .tc := ⟨.hbm, 51, rfl⟩
abbrev main_c_2 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_call2_cst : Ref sig .tc := ⟨.hbm, 63, rfl⟩
abbrev main_call2_v0 : Ref sig .tc := ⟨.hbm, 64, rfl⟩
abbrev main_v34 : Ref sig .tc := ⟨.hbm, 65, rfl⟩
abbrev main_cst_3 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_c_4 : Ref sig .tc := ⟨.hbm, 70, rfl⟩
abbrev main_v38 : Ref sig .tc := ⟨.hbm, 71, rfl⟩
abbrev main_v39 : Ref sig .tc := ⟨.hbm, 72, rfl⟩
abbrev main_c_5 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_call3_cst : Ref sig .tc := ⟨.hbm, 84, rfl⟩
abbrev main_call3_v0 : Ref sig .tc := ⟨.hbm, 85, rfl⟩
abbrev main_v50 : Ref sig .tc := ⟨.hbm, 86, rfl⟩
abbrev main_cst_6 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_call4_cst : Ref sig .tc := ⟨.hbm, 104, rfl⟩
abbrev main_call4_v0 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  dot_S100000x64_S64x64_S100000x64_1_0_0_1_n_n_wf : DotDims.WF S100000x64 S64x64 S100000x64 [1] [0] [0] [1] [] []
  gather_S100000x64_S1000000x1_S1000000x64_1_0_n_n_0_1_164_wf : GatherDims.WF S100000x64 S1000000x1 S1000000x64 [1] [0] [] [0] [] 1 ![1, 64]
  dot_S1000000x64_S64x64_S1000000x64_1_0_0_1_n_n_wf : DotDims.WF S1000000x64 S64x64 S1000000x64 [1] [0] [0] [1] [] []
  scatter_S100000x64_S1000000x1_S1000000x64_1_0_0_1_wf : ScatterDims.WF S100000x64 S1000000x1 S1000000x64 [1] [0] [0] 1
  gather_S50000x64_S1000000x1_S1000000x64_1_0_n_n_0_1_164_wf : GatherDims.WF S50000x64 S1000000x1 S1000000x64 [1] [0] [] [0] [] 1 ![1, 64]
  dot_S50000x64_S64x64_S50000x64_1_0_0_1_n_n_wf : DotDims.WF S50000x64 S64x64 S50000x64 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.LibPlainDot.lean ====
/-
  A plain matrix product `[M, K] × [K, N] → [M, N]` — the left operand's columns contracted with the right operand's
  rows, no batch axis — read at the output entry `(p, q)` at the ideal values: the sum over `k : Fin K` of
  `l (p, k) * r (k, q)`. The device's `matmul` into the zero accumulator and the host's `dot_general` are both
  this sum, whatever record spells the dimension numbers, as long as it is the plain one (`hd`, which a printed
  record meets by `rfl`); and nothing depends on the sizes, so one statement serves a block of rows and the
  whole array alike.
  Beside it: a sum over `Fin (a + b)` of a function that reads its first `a` positions from one family and the
  rest from another is the two families' sums — what a product with two column blocks joined side by side is.
-/
import Idealize.ShloMosaic.Lib.ValueIdx
import Idealize.ShloMosaic.PureOps.Ideal.Laws
import Mathlib.Algebra.BigOperators.Fin

namespace Cert.PlainDot

open Idealize.ShloMosaic Idealize.ShloMosaic.ValueIdx

variable {M K N : ℕ}

/-- The left operand index of the plain product at output `(p, q)` and contraction position `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := 1) rfl (ix2 p q) _).trans hk

/-- The right operand index is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of the plain product, re-indexed by the one contracted coordinate. -/
theorem plain_sum {β : Type*} [AddCommMonoid β] (f : (⟨2, ![M, K]⟩ : Shape).Idx → (⟨2, ![K, N]⟩ : Shape).Idx → β)
    (p : Fin M) (q : Fin N) :
    ∑ k : (DotDims.plain M K N).contr.Idx,
        f ((DotDims.plain M K N).lhsIdx (ix2 p q) k) ((DotDims.plain M K N).rhsIdx (ix2 p q) k)
      = ∑ k : Fin K, f (ix2 p k) (ix2 k q) := by
  rw [← Equiv.sum_comp (contrEquiv1 (DotDims.plain M K N) K rfl rfl).symm]
  refine Finset.sum_congr rfl fun k _ => ?_
  rw [plain_lhsIdx, plain_rhsIdx]

variable {φ₁ φ₂ : FTy}

/-- The device's matrix product into the zero accumulator, at `(p, q)`. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  subst hd
  simp only [matmul]
  rw [Ideal.matmul_constant_zero_apply]
  exact plain_sum (fun a b => l a * r b) p q

/-- The host's `dot_general`, at `(p, q)`. -/
theorem dotGeneral_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum (fun a b => l a * r b) p q

/-- A sum over `Fin (a + b)` of a function given piecewise — below `a` by `f`, from `a` on by `g` — is the sum of
    `f` plus the sum of `g`. -/
theorem sum_two_blocks {β : Type*} [AddCommMonoid β] {a b n : ℕ} (hn : n = a + b) (F : Fin n → β) (f : Fin a → β) (g : Fin b → β)
    (hf : ∀ k : Fin a, F ⟨k.val, by have := k.isLt; omega⟩ = f k)
    (hg : ∀ k : Fin b, F ⟨a + k.val, by have := k.isLt; omega⟩ = g k) :
    ∑ k : Fin n, F k = ∑ k : Fin a, f k + ∑ k : Fin b, g k := by
  subst hn
  rw [Fin.sum_univ_add]
  refine congrArg₂ (· + ·) (Finset.sum_congr rfl fun k _ => ?_) (Finset.sum_congr rfl fun k _ => ?_)
  · exact hf k
  · exact hg k

end Cert.PlainDot
-- ==== Proof.Spec.lean ====
/-
  The one arithmetic shape of this graph layer, stated once for any number of rows `M`: a feature matrix
  `X : [M, 64]`, a weight matrix `W : [64, 64]` used transposed, a bias `b : [64]`. Entry `(p, q)` of
  `X Wᵀ + b` is the sum over `k` of `X (p, k) * W (q, k)`, plus `b q` (`affineAt`); `affine` is that array
  and `edge` its positive part, entry by entry (`max · 0`).
  Two spellings of the same array meet here. On the host the product is a `dot_general` against the
  transposed weights, the bias is broadcast twice (`[64] → [1, 64] → [M, 64]`) and the positive part is a
  `maximum` against a broadcast zero. On the device a block of rows is multiplied into a zero accumulator by the
  already transposed weights `Wt : [64, 64]`, one bias row `b2 : [1, 64]` is broadcast down the block and the
  positive part is a `maximumf` against a splat zero. Both are read at an entry as the same sum: nothing but
  re-indexing of one finite sum is used, so no finiteness of the entries is needed.
-/
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws
import proofs.«106174_j13804024889951_1_alg».proof.Proof.LibPlainDot

noncomputable section

namespace Cert.Spec

open Idealize.ShloMosaic Idealize.ShloMosaic.ValueIdx

variable {M : ℕ}

/-- Entry `(p, q)` of `X Wᵀ + b`. -/
def affineAt (X : FVec Ideal ⟨2, ![M, 64]⟩ .f32) (W : FVec Ideal ⟨2, ![64, 64]⟩ .f32) (b : FVec Ideal ⟨1, ![64]⟩ .f32)
    (p : Fin M) (q : Fin 64) : EReal :=
  (∑ k : Fin 64, X (ix2 p k) * W (ix2 q k)) + b (ix1 q)

/-- The array `X Wᵀ + b`. -/
def affine (X : FVec Ideal ⟨2, ![M, 64]⟩ .f32) (W : FVec Ideal ⟨2, ![64, 64]⟩ .f32) (b : FVec Ideal ⟨1, ![64]⟩ .f32) :
    FVec Ideal ⟨2, ![M, 64]⟩ .f32 := fun i => affineAt X W b (i 0) (i 1)

/-- The positive part of `X Wᵀ + b`, entry by entry. -/
def edge (X : FVec Ideal ⟨2, ![M, 64]⟩ .f32) (W : FVec Ideal ⟨2, ![64, 64]⟩ .f32) (b : FVec Ideal ⟨1, ![64]⟩ .f32) :
    FVec Ideal ⟨2, ![M, 64]⟩ .f32 := fun i => max (affineAt X W b (i 0) (i 1)) 0

/-- The host's spelling of `X Wᵀ + b`: the product with the transposed weights, plus the bias broadcast to a row and
    then down the rows. -/
theorem host_affine (d : DotDims ⟨2, ![M, 64]⟩ ⟨2, ![64, 64]⟩ ⟨2, ![M, 64]⟩) (hd : d = DotDims.plain M 64 64)
    (ht : (⟨2, ![64, 64]⟩ : Shape).Transposes [1, 0] ⟨2, ![64, 64]⟩)
    (h1 : (⟨1, ![64]⟩ : Shape).BroadcastsInDim ⟨2, ![1, 64]⟩ ![1])
    (h2 : (⟨2, ![1, 64]⟩ : Shape).BroadcastsInDim ⟨2, ![M, 64]⟩ ![0, 1])
    (X : FVec Ideal ⟨2, ![M, 64]⟩ .f32) (W : FVec Ideal ⟨2, ![64, 64]⟩ .f32) (b : FVec Ideal ⟨1, ![64]⟩ .f32) :
    addf (Host.dotGeneral d none X (transpose ⟨2, ![64, 64]⟩ [1, 0] W ht))
        (broadcastInDim ⟨2, ![M, 64]⟩ ![0, 1] h2 (broadcastInDim ⟨2, ![1, 64]⟩ ![1] h1 b))
      = affine X W b := by
  funext i
  obtain ⟨p, q, rfl⟩ : ∃ (p : Fin M) (q : Fin 64), i = ix2 p q := ⟨i 0, i 1, eq_ix2 i⟩
  show Host.dotGeneral d none X (transpose ⟨2, ![64, 64]⟩ [1, 0] W ht) (ix2 p q)
      + broadcastInDim ⟨2, ![M, 64]⟩ ![0, 1] h2 (broadcastInDim ⟨2, ![1, 64]⟩ ![1] h1 b) (ix2 p q) = affineAt X W b p q
  rw [Cert.PlainDot.dotGeneral_apply d hd none X _ p q]
  have hb : broadcastInDim ⟨2, ![M, 64]⟩ ![0, 1] h2 (broadcastInDim ⟨2, ![1, 64]⟩ ![1] h1 b) (ix2 p q) = b (ix1 q) := by
    refine (broadcastInDim_apply ![0, 1] h2 _ (ix2 p q) (ix2 (0 : Fin 1) q) fun a => ?_).trans ?_
    · match a with
      | ⟨0, _⟩ => rfl
      | ⟨1, _⟩ => rfl
    · refine broadcastInDim_apply ![1] h1 b (ix2 (0 : Fin 1) q) (ix1 q) fun a => ?_
      match a with
      | ⟨0, _⟩ => rfl
  rw [hb]
  unfold affineAt
  refine congrArg (· + b (ix1 q)) (Finset.sum_congr rfl fun k _ => ?_)
  rw [transpose_ix2_apply W ht k q]

/-- The host's positive part: the larger of an entry and the zero constant broadcast to the array. -/
theorem host_relu {T : Shape} (h0 : (⟨0, ![]⟩ : Shape).BroadcastsInDim T ![]) (Z : FVec Ideal T .f32) :
    maximumf Z (broadcastInDim T ![] h0 (constant (F := Ideal) ⟨0, ![]⟩ .f32 0x00000000#32)) = fun i => max (Z i) 0 := by
  funext i
  show max (Z i) (broadcastInDim T ![] h0 (constant (F := Ideal) ⟨0, ![]⟩ .f32 0x00000000#32) i) = _
  rw [broadcastInDim_scalar_apply]
  show max (Z i) (Ideal.ofBits .f32 0x00000000#32) = _
  rw [Ideal.ofBits_zero_f32]

/-- The host's spelling of the positive part of `X Wᵀ + b`. -/
theorem host_edge (d : DotDims ⟨2, ![M, 64]⟩ ⟨2, ![64, 64]⟩ ⟨2, ![M, 64]⟩) (hd : d = DotDims.plain M 64 64)
    (ht : (⟨2, ![64, 64]⟩ : Shape).Transposes [1, 0] ⟨2, ![64, 64]⟩)
    (h1 : (⟨1, ![64]⟩ : Shape).BroadcastsInDim ⟨2, ![1, 64]⟩ ![1])
    (h2 : (⟨2, ![1, 64]⟩ : Shape).BroadcastsInDim ⟨2, ![M, 64]⟩ ![0, 1])
    (h0 : (⟨0, ![]⟩ : Shape).BroadcastsInDim ⟨2, ![M, 64]⟩ ![])
    (X : FVec Ideal ⟨2, ![M, 64]⟩ .f32) (W : FVec Ideal ⟨2, ![64, 64]⟩ .f32) (b : FVec Ideal ⟨1, ![64]⟩ .f32) :
    maximumf (addf (Host.dotGeneral d none X (transpose ⟨2, ![64, 64]⟩ [1, 0] W ht))
        (broadcastInDim ⟨2, ![M, 64]⟩ ![0, 1] h2 (broadcastInDim ⟨2, ![1, 64]⟩ ![1] h1 b)))
      (broadcastInDim ⟨2, ![M, 64]⟩ ![] h0 (constant (F := Ideal) ⟨0, ![]⟩ .f32 0x00000000#32))
      = edge X W b := by
  rw [host_relu, host_affine d hd ht h1 h2 X W b]
  rfl

/-- A block of `R` rows on the device: the block times the transposed weights into the zero accumulator, plus the one
    bias row broadcast down the block, read at entry `(p, q)`. The operands reach the product through a change of
    float format, which at the ideal values changes nothing. -/
theorem block_affine_apply {R : ℕ} (d : DotDims ⟨2, ![R, 64]⟩ ⟨2, ![64, 64]⟩ ⟨2, ![R, 64]⟩) (hd : d = DotDims.plain R 64 64)
    (hbr : (⟨2, ![1, 64]⟩ : Shape).Broadcasts ⟨2, ![R, 64]⟩)
    (hlt : FTy.bf16.bits < FTy.f32.bits)
    (x : FVec Ideal ⟨2, ![R, 64]⟩ .f32) (wt : FVec Ideal ⟨2, ![64, 64]⟩ .f32) (b2 : FVec Ideal ⟨2, ![1, 64]⟩ .f32)
    (p : Fin R) (q : Fin 64) :
    addf (matmul d none (truncf .bf16 x hlt) (truncf .bf16 wt hlt) (constant ⟨2, ![R, 64]⟩ .f32 0x00000000#32))
        (broadcastTo ⟨2, ![R, 64]⟩ b2 hbr) (ix2 p q)
      = (∑ k : Fin 64, x (ix2 p k) * wt (ix2 k q)) + b2 (ix2 (0 : Fin 1) q) := by
  show matmul d none (truncf .bf16 x hlt) (truncf .bf16 wt hlt) (constant ⟨2, ![R, 64]⟩ .f32 0x00000000#32) (ix2 p q)
      + broadcastTo ⟨2, ![R, 64]⟩ b2 hbr (ix2 p q) = _
  rw [Cert.PlainDot.matmul_zero_apply d hd none _ _ p q, broadcastTo_1b_ab_apply b2 hbr p q]
  rfl

/-- The same block with the positive part taken against a splat zero. -/
theorem block_edge_apply {R : ℕ} (d : DotDims ⟨2, ![R, 64]⟩ ⟨2, ![64, 64]⟩ ⟨2, ![R, 64]⟩) (hd : d = DotDims.plain R 64 64)
    (hbr : (⟨2, ![1, 64]⟩ : Shape).Broadcasts ⟨2, ![R, 64]⟩)
    (hlt : FTy.bf16.bits < FTy.f32.bits)
    (x : FVec Ideal ⟨2, ![R, 64]⟩ .f32) (wt : FVec Ideal ⟨2, ![64, 64]⟩ .f32) (b2 : FVec Ideal ⟨2, ![1, 64]⟩ .f32)
    (p : Fin R) (q : Fin 64) :
    maximumf (addf (matmul d none (truncf .bf16 x hlt) (truncf .bf16 wt hlt) (constant ⟨2, ![R, 64]⟩ .f32 0x00000000#32))
        (broadcastTo ⟨2, ![R, 64]⟩ b2 hbr)) (broadcast ⟨2, ![R, 64]⟩ (Scalar.ofBits (F := Ideal) .f32 0x00000000#32)) (ix2 p q)
      = max ((∑ k : Fin 64, x (ix2 p k) * wt (ix2 k q)) + b2 (ix2 (0 : Fin 1) q)) 0 := by
  show max (addf (matmul d none (truncf .bf16 x hlt) (truncf .bf16 wt hlt) (constant ⟨2, ![R, 64]⟩ .f32 0x00000000#32))
        (broadcastTo ⟨2, ![R, 64]⟩ b2 hbr) (ix2 p q)) (Ideal.ofBits .f32 0x00000000#32) = _
  rw [block_affine_apply d hd hbr hlt x wt b2 p q, Ideal.ofBits_zero_f32]

/-! ## The device's spelling at the level of whole arrays

  What a pipelined region leaves in an output array is read block by block; put together it is the array below, over
  the region's operands as the region finds them: the weights already transposed (`Wt (k, q)`) and the bias as one
  row (`b2 (0, q)`). -/

/-- `X Wt + b2` with `Wt : [64, 64]` multiplied as it stands and `b2 : [1, 64]` one row. -/
def affineK (X : FVec Ideal ⟨2, ![M, 64]⟩ .f32) (Wt : FVec Ideal ⟨2, ![64, 64]⟩ .f32) (b2 : FVec Ideal ⟨2, ![1, 64]⟩ .f32) :
    FVec Ideal ⟨2, ![M, 64]⟩ .f32 :=
  fun i => (∑ k : Fin 64, X (ix2 (i 0) k) * Wt (ix2 k (i 1))) + b2 (ix2 (0 : Fin 1) (i 1))

/-- Its positive part. -/
def edgeK (X : FVec Ideal ⟨2, ![M, 64]⟩ .f32) (Wt : FVec Ideal ⟨2, ![64, 64]⟩ .f32) (b2 : FVec Ideal ⟨2, ![1, 64]⟩ .f32) :
    FVec Ideal ⟨2, ![M, 64]⟩ .f32 :=
  fun i => max ((∑ k : Fin 64, X (ix2 (i 0) k) * Wt (ix2 k (i 1))) + b2 (ix2 (0 : Fin 1) (i 1))) 0

theorem affineK_ix2 (X : FVec Ideal ⟨2, ![M, 64]⟩ .f32) (Wt : FVec Ideal ⟨2, ![64, 64]⟩ .f32) (b2 : FVec Ideal ⟨2, ![1, 64]⟩ .f32)
    (p : Fin M) (q : Fin 64) :
    affineK X Wt b2 (ix2 p q) = (∑ k : Fin 64, X (ix2 p k) * Wt (ix2 k q)) + b2 (ix2 (0 : Fin 1) q) := rfl

theorem edgeK_ix2 (X : FVec Ideal ⟨2, ![M, 64]⟩ .f32) (Wt : FVec Ideal ⟨2, ![64, 64]⟩ .f32) (b2 : FVec Ideal ⟨2, ![1, 64]⟩ .f32)
    (p : Fin M) (q : Fin 64) :
    edgeK X Wt b2 (ix2 p q) = max ((∑ k : Fin 64, X (ix2 p k) * Wt (ix2 k q)) + b2 (ix2 (0 : Fin 1) q)) 0 := rfl

/-- With the weights transposed on the host and the bias cast to one row, the device's array is `X Wᵀ + b`. -/
theorem affineK_eq (ht : (⟨2, ![64, 64]⟩ : Shape).Transposes [1, 0] ⟨2, ![64, 64]⟩)
    (hc : (⟨1, ![64]⟩ : Shape).ShapeCasts ⟨2, ![1, 64]⟩)
    (X : FVec Ideal ⟨2, ![M, 64]⟩ .f32) (W : FVec Ideal ⟨2, ![64, 64]⟩ .f32) (b : FVec Ideal ⟨1, ![64]⟩ .f32) :
    affineK X (transpose ⟨2, ![64, 64]⟩ [1, 0] W ht) (shapeCast ⟨2, ![1, 64]⟩ b hc) = affine X W b := by
  funext i
  obtain ⟨p, q, rfl⟩ : ∃ (p : Fin M) (q : Fin 64), i = ix2 p q := ⟨i 0, i 1, eq_ix2 i⟩
  show (∑ k : Fin 64, X (ix2 p k) * transpose ⟨2, ![64, 64]⟩ [1, 0] W ht (ix2 k q)) + shapeCast ⟨2, ![1, 64]⟩ b hc (ix2 (0 : Fin 1) q)
      = affineAt X W b p q
  rw [shapeCast_a_1a_apply b hc 0 q]
  unfold affineAt
  refine congrArg (· + b (ix1 q)) (Finset.sum_congr rfl fun k _ => ?_)
  rw [transpose_ix2_apply W ht k q]

/-- The same for the positive part. -/
theorem edgeK_eq (ht : (⟨2, ![64, 64]⟩ : Shape).Transposes [1, 0] ⟨2, ![64, 64]⟩)
    (hc : (⟨1, ![64]⟩ : Shape).ShapeCasts ⟨2, ![1, 64]⟩)
    (X : FVec Ideal ⟨2, ![M, 64]⟩ .f32) (W : FVec Ideal ⟨2, ![64, 64]⟩ .f32) (b : FVec Ideal ⟨1, ![64]⟩ .f32) :
    edgeK X (transpose ⟨2, ![64, 64]⟩ [1, 0] W ht) (shapeCast ⟨2, ![1, 64]⟩ b hc) = edge X W b := by
  funext i
  exact congrArg (max · 0) (congrFun (affineK_eq ht hc X W b) i)

/-- An entry of a block, computed from the block's rows, IS the array's entry at the index the block's entry sits at,
    as soon as the block's operands are the array's operands read at the matching places. -/
theorem edgeK_read {R : ℕ} (A : FVec Ideal ⟨2, ![M, 64]⟩ .f32) (Wt : FVec Ideal ⟨2, ![64, 64]⟩ .f32) (b2 : FVec Ideal ⟨2, ![1, 64]⟩ .f32)
    (x : FVec Ideal ⟨2, ![R, 64]⟩ .f32) (w : FVec Ideal ⟨2, ![64, 64]⟩ .f32) (b : FVec Ideal ⟨2, ![1, 64]⟩ .f32)
    (I : (⟨2, ![M, 64]⟩ : Shape).Idx) (p : Fin R) (q : Fin 64)
    (hx : ∀ k : Fin 64, x (ix2 p k) = A (ix2 (I 0) k))
    (hw : ∀ k : Fin 64, w (ix2 k q) = Wt (ix2 k (I 1)))
    (hb : b (ix2 (0 : Fin 1) q) = b2 (ix2 (0 : Fin 1) (I 1))) :
    max ((∑ k : Fin 64, x (ix2 p k) * w (ix2 k q)) + b (ix2 (0 : Fin 1) q)) 0 = edgeK A Wt b2 I := by
  unfold edgeK
  rw [hb]
  exact congrArg (fun s => max (s + b2 (ix2 (0 : Fin 1) (I 1))) 0) (Finset.sum_congr rfl fun k _ => by rw [hx k, hw k])

/-- The same without the positive part. -/
theorem affineK_read {R : ℕ} (A : FVec Ideal ⟨2, ![M, 64]⟩ .f32) (Wt : FVec Ideal ⟨2, ![64, 64]⟩ .f32) (b2 : FVec Ideal ⟨2, ![1, 64]⟩ .f32)
    (x : FVec Ideal ⟨2, ![R, 64]⟩ .f32) (w : FVec Ideal ⟨2, ![64, 64]⟩ .f32) (b : FVec Ideal ⟨2, ![1, 64]⟩ .f32)
    (I : (⟨2, ![M, 64]⟩ : Shape).Idx) (p : Fin R) (q : Fin 64)
    (hx : ∀ k : Fin 64, x (ix2 p k) = A (ix2 (I 0) k))
    (hw : ∀ k : Fin 64, w (ix2 k q) = Wt (ix2 k (I 1)))
    (hb : b (ix2 (0 : Fin 1) q) = b2 (ix2 (0 : Fin 1) (I 1))) :
    (∑ k : Fin 64, x (ix2 p k) * w (ix2 k q)) + b (ix2 (0 : Fin 1) q) = affineK A Wt b2 I := by
  unfold affineK
  rw [hb]
  exact congrArg (fun s => s + b2 (ix2 (0 : Fin 1) (I 1))) (Finset.sum_congr rfl fun k _ => by rw [hx k, hw k])

end Cert.Spec

end
-- ==== Proof.Region0.lean ====
/-
  The first region: the three edge types' messages. Each grid point takes one block of 10000 gathered rows per edge
  type, multiplies it by that type's transposed weights, adds the type's bias row and keeps the positive part; the
  hundred blocks written back tile the message array. So each of the three message arrays ends as ONE function of the
  region's operands as the region finds them: entry `(P, q)` is the positive part of the sum over `k` of
  `X (P, k) * Wt (k, q)`, plus `b2 (0, q)`. The weights and the bias row are resident (every point reads the
  same block), the rows move with the output block.
-/
import proofs.«106174_j13804024889951_1_alg».proof.Proof.Gen.KernelIdeal.Frame
import proofs.«106174_j13804024889951_1_alg».proof.Proof.Spec
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## What a block's entry is -/

/-- Edge type 1's store, at entry `(p, q)` of the block. -/
theorem pay_m1 (x : Vec Ideal S10000x64 .f32) (w : Vec Ideal S64x64 .f32) (b : Vec Ideal S1x64 .f32) (p : Fin 10000) (q : Fin 64) :
    k0_pay5 (F := Ideal) x w b (ix2 p q) = max ((∑ k : Fin 64, x (ix2 p k) * w (ix2 k q)) + b (ix2 (0 : Fin 1) q)) 0 := by
  unfold k0_pay5
  simp only [shapeCast_self]
  exact Cert.Spec.block_edge_apply _ rfl _ _ x w b p q

/-- Edge type 2's store. -/
theorem pay_m2 (x : Vec Ideal S10000x64 .f32) (w : Vec Ideal S64x64 .f32) (b : Vec Ideal S1x64 .f32) (p : Fin 10000) (q : Fin 64) :
    k0_pay1 (F := Ideal) (k0_pay3 (F := Ideal) x w b) (ix2 p q) = max ((∑ k : Fin 64, x (ix2 p k) * w (ix2 k q)) + b (ix2 (0 : Fin 1) q)) 0 := by
  unfold k0_pay1 k0_pay3
  simp only [shapeCast_self]
  exact Cert.Spec.block_edge_apply _ rfl _ _ x w b p q

/-- Edge type 3's store. -/
theorem pay_m3 (x : Vec Ideal S10000x64 .f32) (w : Vec Ideal S64x64 .f32) (b : Vec Ideal S1x64 .f32) (p : Fin 10000) (q : Fin 64) :
    k0_pay2 (F := Ideal) (k0_pay4 (F := Ideal) x w b) (ix2 p q) = max ((∑ k : Fin 64, x (ix2 p k) * w (ix2 k q)) + b (ix2 (0 : Fin 1) q)) 0 := by
  unfold k0_pay2 k0_pay4
  simp only [shapeCast_self]
  exact Cert.Spec.block_edge_apply _ rfl _ _ x w b p q

/-! ## The index maps over the grid -/

/-- Decided over the hundred points: the row blocks of the three inputs move with the outputs' (block `t` at point
    `t`), every window sits at column block 0, and the weights and bias rows stay at block (0, 0). -/
theorem idx_facts : ∀ t : Fin cfg0.N,
    win0_9.index t (0 : Fin 2) = t.val ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## Edge type 1: output window 9 over windows 0 (rows), 3 (weights), 4 (bias row) -/

/-- Point `t` writes back block `t` of edge type 1's message array. -/
theorem flushed9_eq (c : Dev nD) (t : Fin cfg0.N) :
    (dat0 V c).flushed 9 t = ((cfg0.win 9).blk t).view.read (Elt Ideal)
      (Cert.Spec.edgeK (M := 1000000) (V c main_v6) (V c main_v21) (V c main_v27)) := by
  show (cfg0.win 9).cut (grid0.coords t) ((dat0 V c).after 9 t) = _
  rw [after0_9]
  unfold out0_9
  rw [View.canon_unit_zero hz]
  simp only [View.ld_unit_zero (S := S10000x64) hz, View.ld_unit_zero (S := S64x64) hz, View.ld_unit_zero (S := S1x64) hz]
  obtain ⟨o0, o1, -, -, -, -, a0, a1, -, -, -, -, w0, w1, b0, b1, -⟩ := idx_facts t
  funext j
  obtain ⟨p, q, rfl⟩ : ∃ (p : Fin 10000) (q : Fin 64), j = ix2 p q := ⟨j 0, j 1, eq_ix2 j⟩
  show k0_pay5 (F := Ideal) (iblk0 V c 0 t) (iblk0 V c 3 t) (iblk0 V c 4 t) (ix2 p q)
      = Cert.Spec.edgeK (M := 1000000) (V c main_v6) (V c main_v21) (V c main_v27) (((cfg0.win 9).blk t).view.emb (ix2 p q))
  refine (pay_m1 (iblk0 V c 0 t) (iblk0 V c 3 t) (iblk0 V c 4 t) p q).trans ?_
  refine Cert.Spec.edgeK_read (V c main_v6) (V c main_v21) (V c main_v27) (iblk0 V c 0 t) (iblk0 V c 3 t) (iblk0 V c 4 t)
    (((cfg0.win 9).blk t).view.emb (ix2 p q)) p q (fun k => ?_) (fun k => ?_) ?_
  · show V c main_v6 (((cfg0.win 0).blk t).view.emb (ix2 p k)) = V c main_v6 (ix2 ((((cfg0.win 9).blk t).view.emb (ix2 p q)) 0) k)
    refine congrArg (V c main_v6) (funext fun a => Fin.ext ?_)
    match a with
    | ⟨0, _⟩ => show win0_0.index t (0 : Fin 2) * 10000 + 1 * p.val = win0_9.index t (0 : Fin 2) * 10000 + 1 * p.val; omega
    | ⟨1, _⟩ => show win0_0.index t (1 : Fin 2) * 64 + 1 * k.val = k.val; omega
  · show V c main_v21 (((cfg0.win 3).blk t).view.emb (ix2 k q)) = V c main_v21 (ix2 k ((((cfg0.win 9).blk t).view.emb (ix2 p q)) 1))
    refine congrArg (V c main_v21) (funext fun a => Fin.ext ?_)
    match a with
    | ⟨0, _⟩ => show win0_3.index t (0 : Fin 2) * 64 + 1 * k.val = k.val; omega
    | ⟨1, _⟩ => show win0_3.index t (1 : Fin 2) * 64 + 1 * q.val = win0_9.index t (1 : Fin 2) * 64 + 1 * q.val; omega
  · show V c main_v27 (((cfg0.win 4).blk t).view.emb (ix2 (0 : Fin 1) q)) = V c main_v27 (ix2 (0 : Fin 1) ((((cfg0.win 9).blk t).view.emb (ix2 p q)) 1))
    refine congrArg (V c main_v27) (funext fun a => Fin.ext ?_)
    match a with
    | ⟨0, _⟩ => show win0_4.index t (0 : Fin 2) * 1 + 1 * 0 = 0; omega
    | ⟨1, _⟩ => show win0_4.index t (1 : Fin 2) * 64 + 1 * q.val = win0_9.index t (1 : Fin 2) * 64 + 1 * q.val; omega

/-- An index of the message array is in point `t`'s block iff each coordinate is in the block's range on its axis. -/
theorem mem_blk9 (t : Fin cfg0.N) (i : S1000000x64.Idx) :
    i ∈ ((cfg0.win 9).blk t).view.set ↔ ∀ a : Fin 2, win0_9.index t a * S10000x64.size a ≤ (i a).val ∧ (i a).val < win0_9.index t a * S10000x64.size a + S10000x64.size a := by
  show i ∈ ((View.whole main_v33_0).slice (win0_9.rect t)).set ↔ _
  rw [View.set_slice_whole, Rect.mem_set_unit]
  exact Iff.rfl

/-- The hundred blocks tile the array: row `P` lies in the block of point `P / 10000`. -/
theorem cover9 (i : S1000000x64.Idx) :
    ∃ t : Fin cfg0.N, (cfg0.win 9).flush t = true ∧ i ∈ ((cfg0.win 9).blk t).view.set := by
  have hi0 : (i 0).val < 1000000 := (i 0).isLt
  have hi1 : (i 1).val < 64 := (i 1).isLt
  have hN : cfg0.N = 100 := rfl
  have ht : (i 0).val / 10000 < cfg0.N := by rw [hN]; omega
  obtain ⟨o0, o1, -⟩ := idx_facts ⟨(i 0).val / 10000, ht⟩
  have o0' : win0_9.index ⟨(i 0).val / 10000, ht⟩ (0 : Fin 2) = (i 0).val / 10000 := o0
  refine ⟨⟨(i 0).val / 10000, ht⟩, flush0_9 _, ?_⟩
  rw [mem_blk9]
  intro a
  match a with
  | ⟨0, _⟩ => show win0_9.index ⟨(i 0).val / 10000, ht⟩ (0 : Fin 2) * 10000 ≤ (i 0).val ∧ (i 0).val < win0_9.index ⟨(i 0).val / 10000, ht⟩ (0 : Fin 2) * 10000 + 10000; omega
  | ⟨1, _⟩ => show win0_9.index ⟨(i 0).val / 10000, ht⟩ (1 : Fin 2) * 64 ≤ (i 1).val ∧ (i 1).val < win0_9.index ⟨(i 0).val / 10000, ht⟩ (1 : Fin 2) * 64 + 64; omega

/-- Edge type 1's message array after the region. -/
theorem arr9 (c : Dev nD) :
    (dat0 V c).arrAt 9 cfg0.N = Cert.Spec.edgeK (M := 1000000) (V c main_v6) (V c main_v21) (V c main_v27) :=
  (dat0 V c).arrAt_eq_of_cover 9 _ (fun t _ => flushed9_eq V c t) cover9

/-! ## Edge type 2: output window 10 over windows 1 (rows), 5 (weights), 6 (bias row) -/

/-- Point `t` writes back block `t` of edge type 2's message array. -/
theorem flushed10_eq (c : Dev nD) (t : Fin cfg0.N) :
    (dat0 V c).flushed 10 t = ((cfg0.win 10).blk t).view.read (Elt Ideal)
      (Cert.Spec.edgeK (M := 1000000) (V c main_v13) (V c main_v22) (V c main_v28)) := by
  show (cfg0.win 10).cut (grid0.coords t) ((dat0 V c).after 10 t) = _
  rw [after0_10]
  unfold out0_10
  rw [View.canon_unit_zero hz]
  simp only [View.ld_unit_zero (S := S10000x64) hz, View.ld_unit_zero (S := S64x64) hz, View.ld_unit_zero (S := S1x64) hz]
  obtain ⟨-, -, o0, o1, -, -, -, -, a0, a1, -, -, -, -, -, -, w0, w1, b0, b1, -⟩ := idx_facts t
  funext j
  obtain ⟨p, q, rfl⟩ : ∃ (p : Fin 10000) (q : Fin 64), j = ix2 p q := ⟨j 0, j 1, eq_ix2 j⟩
  show k0_pay1 (F := Ideal) (k0_pay3 (F := Ideal) (iblk0 V c 1 t) (iblk0 V c 5 t) (iblk0 V c 6 t)) (ix2 p q)
      = Cert.Spec.edgeK (M := 1000000) (V c main_v13) (V c main_v22) (V c main_v28) (((cfg0.win 10).blk t).view.emb (ix2 p q))
  refine (pay_m2 (iblk0 V c 1 t) (iblk0 V c 5 t) (iblk0 V c 6 t) p q).trans ?_
  refine Cert.Spec.edgeK_read (V c main_v13) (V c main_v22) (V c main_v28) (iblk0 V c 1 t) (iblk0 V c 5 t) (iblk0 V c 6 t)
    (((cfg0.win 10).blk t).view.emb (ix2 p q)) p q (fun k => ?_) (fun k => ?_) ?_
  · show V c main_v13 (((cfg0.win 1).blk t).view.emb (ix2 p k)) = V c main_v13 (ix2 ((((cfg0.win 10).blk t).view.emb (ix2 p q)) 0) k)
    refine congrArg (V c main_v13) (funext fun a => Fin.ext ?_)
    match a with
    | ⟨0, _⟩ => show win0_1.index t (0 : Fin 2) * 10000 + 1 * p.val = win0_10.index t (0 : Fin 2) * 10000 + 1 * p.val; omega
    | ⟨1, _⟩ => show win0_1.index t (1 : Fin 2) * 64 + 1 * k.val = k.val; omega
  · show V c main_v22 (((cfg0.win 5).blk t).view.emb (ix2 k q)) = V c main_v22 (ix2 k ((((cfg0.win 10).blk t).view.emb (ix2 p q)) 1))
    refine congrArg (V c main_v22) (funext fun a => Fin.ext ?_)
    match a with
    | ⟨0, _⟩ => show win0_5.index t (0 : Fin 2) * 64 + 1 * k.val = k.val; omega
    | ⟨1, _⟩ => show win0_5.index t (1 : Fin 2) * 64 + 1 * q.val = win0_10.index t (1 : Fin 2) * 64 + 1 * q.val; omega
  · show V c main_v28 (((cfg0.win 6).blk t).view.emb (ix2 (0 : Fin 1) q)) = V c main_v28 (ix2 (0 : Fin 1) ((((cfg0.win 10).blk t).view.emb (ix2 p q)) 1))
    refine congrArg (V c main_v28) (funext fun a => Fin.ext ?_)
    match a with
    | ⟨0, _⟩ => show win0_6.index t (0 : Fin 2) * 1 + 1 * 0 = 0; omega
    | ⟨1, _⟩ => show win0_6.index t (1 : Fin 2) * 64 + 1 * q.val = win0_10.index t (1 : Fin 2) * 64 + 1 * q.val; omega

theorem mem_blk10 (t : Fin cfg0.N) (i : S1000000x64.Idx) :
    i ∈ ((cfg0.win 10).blk t).view.set ↔ ∀ a : Fin 2, win0_10.index t a * S10000x64.size a ≤ (i a).val ∧ (i a).val < win0_10.index t a * S10000x64.size a + S10000x64.size a := by
  show i ∈ ((View.whole main_v33_1).slice (win0_10.rect t)).set ↔ _
  rw [View.set_slice_whole, Rect.mem_set_unit]
  exact Iff.rfl

theorem cover10 (i : S1000000x64.Idx) :
    ∃ t : Fin cfg0.N, (cfg0.win 10).flush t = true ∧ i ∈ ((cfg0.win 10).blk t).view.set := by
  have hi0 : (i 0).val < 1000000 := (i 0).isLt
  have hi1 : (i 1).val < 64 := (i 1).isLt
  have hN : cfg0.N = 100 := rfl
  have ht : (i 0).val / 10000 < cfg0.N := by rw [hN]; omega
  obtain ⟨-, -, o0, o1, -⟩ := idx_facts ⟨(i 0).val / 10000, ht⟩
  have o0' : win0_10.index ⟨(i 0).val / 10000, ht⟩ (0 : Fin 2) = (i 0).val / 10000 := o0
  refine ⟨⟨(i 0).val / 10000, ht⟩, flush0_10 _, ?_⟩
  rw [mem_blk10]
  intro a
  match a with
  | ⟨0, _⟩ => show win0_10.index ⟨(i 0).val / 10000, ht⟩ (0 : Fin 2) * 10000 ≤ (i 0).val ∧ (i 0).val < win0_10.index ⟨(i 0).val / 10000, ht⟩ (0 : Fin 2) * 10000 + 10000; omega
  | ⟨1, _⟩ => show win0_10.index ⟨(i 0).val / 10000, ht⟩ (1 : Fin 2) * 64 ≤ (i 1).val ∧ (i 1).val < win0_10.index ⟨(i 0).val / 10000, ht⟩ (1 : Fin 2) * 64 + 64; omega

/-- Edge type 2's message array after the region. -/
theorem arr10 (c : Dev nD) :
    (dat0 V c).arrAt 10 cfg0.N = Cert.Spec.edgeK (M := 1000000) (V c main_v13) (V c main_v22) (V c main_v28) :=
  (dat0 V c).arrAt_eq_of_cover 10 _ (fun t _ => flushed10_eq V c t) cover10

/-! ## Edge type 3: output window 11 over windows 2 (rows), 7 (weights), 8 (bias row) -/

/-- Point `t` writes back block `t` of edge type 3's message array. -/
theorem flushed11_eq (c : Dev nD) (t : Fin cfg0.N) :
    (dat0 V c).flushed 11 t = ((cfg0.win 11).blk t).view.read (Elt Ideal)
      (Cert.Spec.edgeK (M := 1000000) (V c main_v20) (V c main_v23) (V c main_v29)) := by
  show (cfg0.win 11).cut (grid0.coords t) ((dat0 V c).after 11 t) = _
  rw [after0_11]
  unfold out0_11
  rw [View.canon_unit_zero hz]
  simp only [View.ld_unit_zero (S := S10000x64) hz, View.ld_unit_zero (S := S64x64) hz, View.ld_unit_zero (S := S1x64) hz]
  obtain ⟨-, -, -, -, o0, o1, -, -, -, -, a0, a1, -, -, -, -, -, -, -, -, w0, w1, b0, b1⟩ := idx_facts t
  funext j
  obtain ⟨p, q, rfl⟩ : ∃ (p : Fin 10000) (q : Fin 64), j = ix2 p q := ⟨j 0, j 1, eq_ix2 j⟩
  show k0_pay2 (F := Ideal) (k0_pay4 (F := Ideal) (iblk0 V c 2 t) (iblk0 V c 7 t) (iblk0 V c 8 t)) (ix2 p q)
      = Cert.Spec.edgeK (M := 1000000) (V c main_v20) (V c main_v23) (V c main_v29) (((cfg0.win 11).blk t).view.emb (ix2 p q))
  refine (pay_m3 (iblk0 V c 2 t) (iblk0 V c 7 t) (iblk0 V c 8 t) p q).trans ?_
  refine Cert.Spec.edgeK_read (V c main_v20) (V c main_v23) (V c main_v29) (iblk0 V c 2 t) (iblk0 V c 7 t) (iblk0 V c 8 t)
    (((cfg0.win 11).blk t).view.emb (ix2 p q)) p q (fun k => ?_) (fun k => ?_) ?_
  · show V c main_v20 (((cfg0.win 2).blk t).view.emb (ix2 p k)) = V c main_v20 (ix2 ((((cfg0.win 11).blk t).view.emb (ix2 p q)) 0) k)
    refine congrArg (V c main_v20) (funext fun a => Fin.ext ?_)
    match a with
    | ⟨0, _⟩ => show win0_2.index t (0 : Fin 2) * 10000 + 1 * p.val = win0_11.index t (0 : Fin 2) * 10000 + 1 * p.val; omega
    | ⟨1, _⟩ => show win0_2.index t (1 : Fin 2) * 64 + 1 * k.val = k.val; omega
  · show V c main_v23 (((cfg0.win 7).blk t).view.emb (ix2 k q)) = V c main_v23 (ix2 k ((((cfg0.win 11).blk t).view.emb (ix2 p q)) 1))
    refine congrArg (V c main_v23) (funext fun a => Fin.ext ?_)
    match a with
    | ⟨0, _⟩ => show win0_7.index t (0 : Fin 2) * 64 + 1 * k.val = k.val; omega
    | ⟨1, _⟩ => show win0_7.index t (1 : Fin 2) * 64 + 1 * q.val = win0_11.index t (1 : Fin 2) * 64 + 1 * q.val; omega
  · show V c main_v29 (((cfg0.win 8).blk t).view.emb (ix2 (0 : Fin 1) q)) = V c main_v29 (ix2 (0 : Fin 1) ((((cfg0.win 11).blk t).view.emb (ix2 p q)) 1))
    refine congrArg (V c main_v29) (funext fun a => Fin.ext ?_)
    match a with
    | ⟨0, _⟩ => show win0_8.index t (0 : Fin 2) * 1 + 1 * 0 = 0; omega
    | ⟨1, _⟩ => show win0_8.index t (1 : Fin 2) * 64 + 1 * q.val = win0_11.index t (1 : Fin 2) * 64 + 1 * q.val; omega

theorem mem_blk11 (t : Fin cfg0.N) (i : S1000000x64.Idx) :
    i ∈ ((cfg0.win 11).blk t).view.set ↔ ∀ a : Fin 2, win0_11.index t a * S10000x64.size a ≤ (i a).val ∧ (i a).val < win0_11.index t a * S10000x64.size a + S10000x64.size a := by
  show i ∈ ((View.whole main_v33_2).slice (win0_11.rect t)).set ↔ _
  rw [View.set_slice_whole, Rect.mem_set_unit]
  exact Iff.rfl

theorem cover11 (i : S1000000x64.Idx) :
    ∃ t : Fin cfg0.N, (cfg0.win 11).flush t = true ∧ i ∈ ((cfg0.win 11).blk t).view.set := by
  have hi0 : (i 0).val < 1000000 := (i 0).isLt
  have hi1 : (i 1).val < 64 := (i 1).isLt
  have hN : cfg0.N = 100 := rfl
  have ht : (i 0).val / 10000 < cfg0.N := by rw [hN]; omega
  obtain ⟨-, -, -, -, o0, o1, -⟩ := idx_facts ⟨(i 0).val / 10000, ht⟩
  have o0' : win0_11.index ⟨(i 0).val / 10000, ht⟩ (0 : Fin 2) = (i 0).val / 10000 := o0
  refine ⟨⟨(i 0).val / 10000, ht⟩, flush0_11 _, ?_⟩
  rw [mem_blk11]
  intro a
  match a with
  | ⟨0, _⟩ => show win0_11.index ⟨(i 0).val / 10000, ht⟩ (0 : Fin 2) * 10000 ≤ (i 0).val ∧ (i 0).val < win0_11.index ⟨(i 0).val / 10000, ht⟩ (0 : Fin 2) * 10000 + 10000; omega
  | ⟨1, _⟩ => show win0_11.index ⟨(i 0).val / 10000, ht⟩ (1 : Fin 2) * 64 ≤ (i 1).val ∧ (i 1).val < win0_11.index ⟨(i 0).val / 10000, ht⟩ (1 : Fin 2) * 64 + 64; omega

/-- Edge type 3's message array after the region. -/
theorem arr11 (c : Dev nD) :
    (dat0 V c).arrAt 11 cfg0.N = Cert.Spec.edgeK (M := 1000000) (V c main_v20) (V c main_v23) (V c main_v29) :=
  (dat0 V c).arrAt_eq_of_cover 11 _ (fun t _ => flushed11_eq V c t) cover11

end Cert.KernelIdeal.Region0

end
-- ==== Proof.Region1.lean ====
/-
  The second region: self-loop, aggregation and the pool projection. Each of the ten grid points takes a block of
  10000 node rows, forms the positive part of the rows times the transposed self-loop weights plus the bias row,
  adds the three aggregated message blocks entry by entry, multiplies the sum by the transposed pool weights and adds
  the pool bias row; the ten blocks written back tile the 100000-row result. So the result array ends as ONE function
  of the region's operands as the region finds them: with `agg = edge part of the node rows + S1 + S2 + S3`, entry
  `(P, q)` is the sum over `k` of `agg (P, k) * Wpt (k, q)`, plus `bp2 (0, q)`. Row `P` of the result reads
  row `P` of each streamed operand and nothing else of them, so the blocks never meet.
-/
import proofs.«106174_j13804024889951_1_alg».proof.Proof.Gen.KernelIdeal.Frame
import proofs.«106174_j13804024889951_1_alg».proof.Proof.Spec
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## What a block's entry is -/

/-- The aggregated features of a block: the positive part of the rows' self-loop transform plus the three message
    blocks, entry by entry. -/
def aggB (x : Vec Ideal S10000x64 .f32) (wx : Vec Ideal S64x64 .f32) (bx : Vec Ideal S1x64 .f32)
    (m1 m2 m3 : Vec Ideal S10000x64 .f32) : FVec Ideal S10000x64 .f32 :=
  addf (addf (addf (fun i => max ((∑ j : Fin 64, x (ix2 (i 0) j) * wx (ix2 j (i 1))) + bx (ix2 (0 : Fin 1) (i 1))) 0) m1) m2) m3

/-- The body's one store, at entry `(p, q)` of the block: the aggregated features' row `p` against column `q` of the
    pool weights, plus the pool bias. -/
theorem pay_out (x : Vec Ideal S10000x64 .f32) (wx : Vec Ideal S64x64 .f32) (bx : Vec Ideal S1x64 .f32)
    (m1 m2 m3 : Vec Ideal S10000x64 .f32) (wp : Vec Ideal S64x64 .f32) (bp : Vec Ideal S1x64 .f32) (p : Fin 10000) (q : Fin 64) :
    k1_pay1 (F := Ideal) x wx bx m1 m2 m3 wp bp (ix2 p q)
      = (∑ k : Fin 64, aggB x wx bx m1 m2 m3 (ix2 p k) * wp (ix2 k q)) + bp (ix2 (0 : Fin 1) q) := by
  unfold k1_pay1
  simp only [shapeCast_self]
  refine (Cert.Spec.block_affine_apply _ rfl _ _ _ wp bp p q).trans ?_
  refine congrArg (· + bp (ix2 (0 : Fin 1) q)) (Finset.sum_congr rfl fun k _ => ?_)
  refine congrArg (· * wp (ix2 k q)) ?_
  show _ + m1 (ix2 p k) + m2 (ix2 p k) + m3 (ix2 p k) = _ + m1 (ix2 p k) + m2 (ix2 p k) + m3 (ix2 p k)
  refine congrArg (· + m1 (ix2 p k) + m2 (ix2 p k) + m3 (ix2 p k)) ?_
  exact Cert.Spec.block_edge_apply _ rfl _ _ x wx bx p k

/-- The aggregated features of a block at `(p, k)` ARE the aggregated features of the whole arrays at the row the
    block's row sits at, as soon as the block's operands are the arrays' operands read at the matching places. -/
theorem aggB_read (x : Vec Ideal S10000x64 .f32) (wx : Vec Ideal S64x64 .f32) (bx : Vec Ideal S1x64 .f32)
    (m1 m2 m3 : Vec Ideal S10000x64 .f32)
    (X : FVec Ideal S100000x64 .f32) (Wxt : FVec Ideal S64x64 .f32) (bx2 : FVec Ideal S1x64 .f32) (S1 S2 S3 : FVec Ideal S100000x64 .f32)
    (I : S100000x64.Idx) (p : Fin 10000) (k : Fin 64)
    (hx : ∀ j : Fin 64, x (ix2 p j) = X (ix2 (I 0) j))
    (hw : ∀ j : Fin 64, wx (ix2 j k) = Wxt (ix2 j k))
    (hb : bx (ix2 (0 : Fin 1) k) = bx2 (ix2 (0 : Fin 1) k))
    (h1 : m1 (ix2 p k) = S1 (ix2 (I 0) k)) (h2 : m2 (ix2 p k) = S2 (ix2 (I 0) k)) (h3 : m3 (ix2 p k) = S3 (ix2 (I 0) k)) :
    aggB x wx bx m1 m2 m3 (ix2 p k)
      = addf (addf (addf (Cert.Spec.edgeK (M := 100000) X Wxt bx2) S1) S2) S3 (ix2 (I 0) k) := by
  show max ((∑ j : Fin 64, x (ix2 p j) * wx (ix2 j k)) + bx (ix2 (0 : Fin 1) k)) 0 + m1 (ix2 p k) + m2 (ix2 p k) + m3 (ix2 p k)
      = Cert.Spec.edgeK (M := 100000) X Wxt bx2 (ix2 (I 0) k) + S1 (ix2 (I 0) k) + S2 (ix2 (I 0) k) + S3 (ix2 (I 0) k)
  rw [h1, h2, h3]
  refine congrArg (· + S1 (ix2 (I 0) k) + S2 (ix2 (I 0) k) + S3 (ix2 (I 0) k)) ?_
  exact Cert.Spec.edgeK_read X Wxt bx2 x wx bx (ix2 (I 0) k) p k hx hw hb

/-! ## The index maps over the grid -/

/-- Decided over the ten points: the four streamed operands' row blocks move with the output's (block `t` at point
    `t`, column block 0), the two weight matrices and the two bias rows stay at block (0, 0). -/
theorem idx_facts : ∀ t : Fin cfg1.N,
    win1_8.index t (0 : Fin 2) = t.val ∧ win1_8.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-! ## What a point writes back -/

/-- The aggregated features as a whole array, over the region's operands. -/
def aggA (c : Dev nD) : FVec Ideal S100000x64 .f32 :=
  addf (addf (addf (Cert.Spec.edgeK (M := 100000) (V c main_arg0) (V c main_v24) (V c main_v30)) (V c main_v36)) (V c main_v39)) (V c main_v42)

set_option maxHeartbeats 1600000 in
/-- Point `t` writes back block `t` of the result. -/
theorem flushed8_eq (c : Dev nD) (t : Fin cfg1.N) :
    (dat1 V c).flushed 8 t = ((cfg1.win 8).blk t).view.read (Elt Ideal)
      (Cert.Spec.affineK (M := 100000) (aggA V c) (V c main_v25) (V c main_v31)) := by
  show (cfg1.win 8).cut (grid1.coords t) ((dat1 V c).after 8 t) = _
  rw [after1_8]
  unfold out1_8
  rw [View.canon_unit_zero hz]
  simp only [View.ld_unit_zero (S := S10000x64) hz, View.ld_unit_zero (S := S64x64) hz, View.ld_unit_zero (S := S1x64) hz]
  obtain ⟨o0, o1, x0, x1, s10, s11, s20, s21, s30, s31, wx0, wx1, bx0, bx1, wp0, wp1, bp0, bp1⟩ := idx_facts t
  funext j
  obtain ⟨p, q, rfl⟩ : ∃ (p : Fin 10000) (q : Fin 64), j = ix2 p q := ⟨j 0, j 1, eq_ix2 j⟩
  show k1_pay1 (F := Ideal) (iblk1 V c 0 t) (iblk1 V c 4 t) (iblk1 V c 5 t) (iblk1 V c 1 t) (iblk1 V c 2 t) (iblk1 V c 3 t) (iblk1 V c 6 t) (iblk1 V c 7 t) (ix2 p q)
      = Cert.Spec.affineK (M := 100000) (aggA V c) (V c main_v25) (V c main_v31) (((cfg1.win 8).blk t).view.emb (ix2 p q))
  refine (pay_out (iblk1 V c 0 t) (iblk1 V c 4 t) (iblk1 V c 5 t) (iblk1 V c 1 t) (iblk1 V c 2 t) (iblk1 V c 3 t) (iblk1 V c 6 t) (iblk1 V c 7 t) p q).trans ?_
  refine Cert.Spec.affineK_read (aggA V c) (V c main_v25) (V c main_v31)
    (aggB (iblk1 V c 0 t) (iblk1 V c 4 t) (iblk1 V c 5 t) (iblk1 V c 1 t) (iblk1 V c 2 t) (iblk1 V c 3 t)) (iblk1 V c 6 t) (iblk1 V c 7 t)
    (((cfg1.win 8).blk t).view.emb (ix2 p q)) p q (fun k => ?_) (fun k => ?_) ?_
  · -- the aggregated features: each of the four summands at the block's row is the array's at the array's row
    refine aggB_read (iblk1 V c 0 t) (iblk1 V c 4 t) (iblk1 V c 5 t) (iblk1 V c 1 t) (iblk1 V c 2 t) (iblk1 V c 3 t)
      (V c main_arg0) (V c main_v24) (V c main_v30) (V c main_v36) (V c main_v39) (V c main_v42)
      (((cfg1.win 8).blk t).view.emb (ix2 p q)) p k (fun j => ?_) (fun j => ?_) ?_ ?_ ?_ ?_
    · show V c main_arg0 (((cfg1.win 0).blk t).view.emb (ix2 p j)) = V c main_arg0 (ix2 ((((cfg1.win 8).blk t).view.emb (ix2 p q)) 0) j)
      refine congrArg (V c main_arg0) (funext fun a => Fin.ext ?_)
      match a with
      | ⟨0, _⟩ => show win1_0.index t (0 : Fin 2) * 10000 + 1 * p.val = win1_8.index t (0 : Fin 2) * 10000 + 1 * p.val; omega
      | ⟨1, _⟩ => show win1_0.index t (1 : Fin 2) * 64 + 1 * j.val = j.val; omega
    · show V c main_v24 (((cfg1.win 4).blk t).view.emb (ix2 j k)) = V c main_v24 (ix2 j k)
      refine congrArg (V c main_v24) (funext fun a => Fin.ext ?_)
      match a with
      | ⟨0, _⟩ => show win1_4.index t (0 : Fin 2) * 64 + 1 * j.val = j.val; omega
      | ⟨1, _⟩ => show win1_4.index t (1 : Fin 2) * 64 + 1 * k.val = k.val; omega
    · show V c main_v30 (((cfg1.win 5).blk t).view.emb (ix2 (0 : Fin 1) k)) = V c main_v30 (ix2 (0 : Fin 1) k)
      refine congrArg (V c main_v30) (funext fun a => Fin.ext ?_)
      match a with
      | ⟨0, _⟩ => show win1_5.index t (0 : Fin 2) * 1 + 1 * 0 = 0; omega
      | ⟨1, _⟩ => show win1_5.index t (1 : Fin 2) * 64 + 1 * k.val = k.val; omega
    · show V c main_v36 (((cfg1.win 1).blk t).view.emb (ix2 p k)) = V c main_v36 (ix2 ((((cfg1.win 8).blk t).view.emb (ix2 p q)) 0) k)
      refine congrArg (V c main_v36) (funext fun a => Fin.ext ?_)
      match a with
      | ⟨0, _⟩ => show win1_1.index t (0 : Fin 2) * 10000 + 1 * p.val = win1_8.index t (0 : Fin 2) * 10000 + 1 * p.val; omega
      | ⟨1, _⟩ => show win1_1.index t (1 : Fin 2) * 64 + 1 * k.val = k.val; omega
    · show V c main_v39 (((cfg1.win 2).blk t).view.emb (ix2 p k)) = V c main_v39 (ix2 ((((cfg1.win 8).blk t).view.emb (ix2 p q)) 0) k)
      refine congrArg (V c main_v39) (funext fun a => Fin.ext ?_)
      match a with
      | ⟨0, _⟩ => show win1_2.index t (0 : Fin 2) * 10000 + 1 * p.val = win1_8.index t (0 : Fin 2) * 10000 + 1 * p.val; omega
      | ⟨1, _⟩ => show win1_2.index t (1 : Fin 2) * 64 + 1 * k.val = k.val; omega
    · show V c main_v42 (((cfg1.win 3).blk t).view.emb (ix2 p k)) = V c main_v42 (ix2 ((((cfg1.win 8).blk t).view.emb (ix2 p q)) 0) k)
      refine congrArg (V c main_v42) (funext fun a => Fin.ext ?_)
      match a with
      | ⟨0, _⟩ => show win1_3.index t (0 : Fin 2) * 10000 + 1 * p.val = win1_8.index t (0 : Fin 2) * 10000 + 1 * p.val; omega
      | ⟨1, _⟩ => show win1_3.index t (1 : Fin 2) * 64 + 1 * k.val = k.val; omega
  · show V c main_v25 (((cfg1.win 6).blk t).view.emb (ix2 k q)) = V c main_v25 (ix2 k ((((cfg1.win 8).blk t).view.emb (ix2 p q)) 1))
    refine congrArg (V c main_v25) (funext fun a => Fin.ext ?_)
    match a with
    | ⟨0, _⟩ => show win1_6.index t (0 : Fin 2) * 64 + 1 * k.val = k.val; omega
    | ⟨1, _⟩ => show win1_6.index t (1 : Fin 2) * 64 + 1 * q.val = win1_8.index t (1 : Fin 2) * 64 + 1 * q.val; omega
  · show V c main_v31 (((cfg1.win 7).blk t).view.emb (ix2 (0 : Fin 1) q)) = V c main_v31 (ix2 (0 : Fin 1) ((((cfg1.win 8).blk t).view.emb (ix2 p q)) 1))
    refine congrArg (V c main_v31) (funext fun a => Fin.ext ?_)
    match a with
    | ⟨0, _⟩ => show win1_7.index t (0 : Fin 2) * 1 + 1 * 0 = 0; omega
    | ⟨1, _⟩ => show win1_7.index t (1 : Fin 2) * 64 + 1 * q.val = win1_8.index t (1 : Fin 2) * 64 + 1 * q.val; omega

/-- An index of the result is in point `t`'s block iff each coordinate is in the block's range on its axis. -/
theorem mem_blk8 (t : Fin cfg1.N) (i : S100000x64.Idx) :
    i ∈ ((cfg1.win 8).blk t).view.set ↔ ∀ a : Fin 2, win1_8.index t a * S10000x64.size a ≤ (i a).val ∧ (i a).val < win1_8.index t a * S10000x64.size a + S10000x64.size a := by
  show i ∈ ((View.whole main_v43).slice (win1_8.rect t)).set ↔ _
  rw [View.set_slice_whole, Rect.mem_set_unit]
  exact Iff.rfl

/-- The ten blocks tile the array: row `P` lies in the block of point `P / 10000`. -/
theorem cover8 (i : S100000x64.Idx) :
    ∃ t : Fin cfg1.N, (cfg1.win 8).flush t = true ∧ i ∈ ((cfg1.win 8).blk t).view.set := by
  have hi0 : (i 0).val < 100000 := (i 0).isLt
  have hi1 : (i 1).val < 64 := (i 1).isLt
  have hN : cfg1.N = 10 := rfl
  have ht : (i 0).val / 10000 < cfg1.N := by rw [hN]; omega
  obtain ⟨o0, o1, -⟩ := idx_facts ⟨(i 0).val / 10000, ht⟩
  have o0' : win1_8.index ⟨(i 0).val / 10000, ht⟩ (0 : Fin 2) = (i 0).val / 10000 := o0
  refine ⟨⟨(i 0).val / 10000, ht⟩, flush1_8 _, ?_⟩
  rw [mem_blk8]
  intro a
  match a with
  | ⟨0, _⟩ => show win1_8.index ⟨(i 0).val / 10000, ht⟩ (0 : Fin 2) * 10000 ≤ (i 0).val ∧ (i 0).val < win1_8.index ⟨(i 0).val / 10000, ht⟩ (0 : Fin 2) * 10000 + 10000; omega
  | ⟨1, _⟩ => show win1_8.index ⟨(i 0).val / 10000, ht⟩ (1 : Fin 2) * 64 ≤ (i 1).val ∧ (i 1).val < win1_8.index ⟨(i 0).val / 10000, ht⟩ (1 : Fin 2) * 64 + 64; omega

/-- The node result after the region. -/
theorem arr8 (c : Dev nD) :
    (dat1 V c).arrAt 8 cfg1.N = Cert.Spec.affineK (M := 100000) (aggA V c) (V c main_v25) (V c main_v31) :=
  (dat1 V c).arrAt_eq_of_cover 8 _ (fun t _ => flushed8_eq V c t) cover8

end Cert.KernelIdeal.Region1

end
-- ==== Proof.Region2.lean ====
/-
  The third region: the context transform. Each of the five grid points takes a block of 10000 context rows,
  multiplies it by the transposed context weights, adds the bias row and keeps the positive part; the five blocks
  written back tile the 50000-row result. So the result array ends as ONE function of the region's operands as the
  region finds them: entry `(P, q)` is the positive part of the sum over `k` of `C (P, k) * Wt (k, q)`, plus
  `b2 (0, q)`.
-/
import proofs.«106174_j13804024889951_1_alg».proof.Proof.Gen.KernelIdeal.Frame
import proofs.«106174_j13804024889951_1_alg».proof.Proof.Spec
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's one store, at entry `(p, q)` of the block. -/
theorem pay_ctx (x : Vec Ideal S10000x64 .f32) (w : Vec Ideal S64x64 .f32) (b : Vec Ideal S1x64 .f32) (p : Fin 10000) (q : Fin 64) :
    k2_pay1 (F := Ideal) x w b (ix2 p q) = max ((∑ k : Fin 64, x (ix2 p k) * w (ix2 k q)) + b (ix2 (0 : Fin 1) q)) 0 := by
  unfold k2_pay1
  simp only [shapeCast_self]
  exact Cert.Spec.block_edge_apply _ rfl _ _ x w b p q

/-- Decided over the five points: the context rows' block moves with the output's (block `t` at point `t`, column
    block 0), the weights and the bias row stay at block (0, 0). -/
theorem idx_facts : ∀ t : Fin cfg2.N,
    win2_3.index t (0 : Fin 2) = t.val ∧ win2_3.index t (1 : Fin 2) = 0
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- Point `t` writes back block `t` of the result. -/
theorem flushed3_eq (c : Dev nD) (t : Fin cfg2.N) :
    (dat2 V c).flushed 3 t = ((cfg2.win 3).blk t).view.read (Elt Ideal)
      (Cert.Spec.edgeK (M := 50000) (V c main_arg1) (V c main_v26) (V c main_v32)) := by
  show (cfg2.win 3).cut (grid2.coords t) ((dat2 V c).after 3 t) = _
  rw [after2_3]
  unfold out2_3
  rw [View.canon_unit_zero hz]
  simp only [View.ld_unit_zero (S := S10000x64) hz, View.ld_unit_zero (S := S64x64) hz, View.ld_unit_zero (S := S1x64) hz]
  obtain ⟨o0, o1, a0, a1, w0, w1, b0, b1⟩ := idx_facts t
  funext j
  obtain ⟨p, q, rfl⟩ : ∃ (p : Fin 10000) (q : Fin 64), j = ix2 p q := ⟨j 0, j 1, eq_ix2 j⟩
  show k2_pay1 (F := Ideal) (iblk2 V c 0 t) (iblk2 V c 1 t) (iblk2 V c 2 t) (ix2 p q)
      = Cert.Spec.edgeK (M := 50000) (V c main_arg1) (V c main_v26) (V c main_v32) (((cfg2.win 3).blk t).view.emb (ix2 p q))
  refine (pay_ctx (iblk2 V c 0 t) (iblk2 V c 1 t) (iblk2 V c 2 t) p q).trans ?_
  refine Cert.Spec.edgeK_read (V c main_arg1) (V c main_v26) (V c main_v32) (iblk2 V c 0 t) (iblk2 V c 1 t) (iblk2 V c 2 t)
    (((cfg2.win 3).blk t).view.emb (ix2 p q)) p q (fun k => ?_) (fun k => ?_) ?_
  · show V c main_arg1 (((cfg2.win 0).blk t).view.emb (ix2 p k)) = V c main_arg1 (ix2 ((((cfg2.win 3).blk t).view.emb (ix2 p q)) 0) k)
    refine congrArg (V c main_arg1) (funext fun a => Fin.ext ?_)
    match a with
    | ⟨0, _⟩ => show win2_0.index t (0 : Fin 2) * 10000 + 1 * p.val = win2_3.index t (0 : Fin 2) * 10000 + 1 * p.val; omega
    | ⟨1, _⟩ => show win2_0.index t (1 : Fin 2) * 64 + 1 * k.val = k.val; omega
  · show V c main_v26 (((cfg2.win 1).blk t).view.emb (ix2 k q)) = V c main_v26 (ix2 k ((((cfg2.win 3).blk t).view.emb (ix2 p q)) 1))
    refine congrArg (V c main_v26) (funext fun a => Fin.ext ?_)
    match a with
    | ⟨0, _⟩ => show win2_1.index t (0 : Fin 2) * 64 + 1 * k.val = k.val; omega
    | ⟨1, _⟩ => show win2_1.index t (1 : Fin 2) * 64 + 1 * q.val = win2_3.index t (1 : Fin 2) * 64 + 1 * q.val; omega
  · show V c main_v32 (((cfg2.win 2).blk t).view.emb (ix2 (0 : Fin 1) q)) = V c main_v32 (ix2 (0 : Fin 1) ((((cfg2.win 3).blk t).view.emb (ix2 p q)) 1))
    refine congrArg (V c main_v32) (funext fun a => Fin.ext ?_)
    match a with
    | ⟨0, _⟩ => show win2_2.index t (0 : Fin 2) * 1 + 1 * 0 = 0; omega
    | ⟨1, _⟩ => show win2_2.index t (1 : Fin 2) * 64 + 1 * q.val = win2_3.index t (1 : Fin 2) * 64 + 1 * q.val; omega

/-- An index of the result is in point `t`'s block iff each coordinate is in the block's range on its axis. -/
theorem mem_blk3 (t : Fin cfg2.N) (i : S50000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v44).slice (win2_3.rect t)).set ↔ _
  rw [View.set_slice_whole, Rect.mem_set_unit]
  exact Iff.rfl

/-- The five blocks tile the array: row `P` lies in the block of point `P / 10000`. -/
theorem cover3 (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 5 := rfl
  have ht : (i 0).val / 10000 < cfg2.N := by rw [hN]; omega
  obtain ⟨o0, o1, -⟩ := idx_facts ⟨(i 0).val / 10000, ht⟩
  have o0' : win2_3.index ⟨(i 0).val / 10000, ht⟩ (0 : Fin 2) = (i 0).val / 10000 := o0
  refine ⟨⟨(i 0).val / 10000, ht⟩, flush2_3 _, ?_⟩
  rw [mem_blk3]
  intro a
  match a with
  | ⟨0, _⟩ => show win2_3.index ⟨(i 0).val / 10000, ht⟩ (0 : Fin 2) * 10000 ≤ (i 0).val ∧ (i 0).val < win2_3.index ⟨(i 0).val / 10000, ht⟩ (0 : Fin 2) * 10000 + 10000; omega
  | ⟨1, _⟩ => show win2_3.index ⟨(i 0).val / 10000, ht⟩ (1 : Fin 2) * 64 ≤ (i 1).val ∧ (i 1).val < win2_3.index ⟨(i 0).val / 10000, ht⟩ (1 : Fin 2) * 64 + 64; omega

/-- The context result after the region. -/
theorem arr3 (c : Dev nD) :
    (dat2 V c).arrAt 3 cfg2.N = Cert.Spec.edgeK (M := 50000) (V c main_arg1) (V c main_v26) (V c main_v32) :=
  (dat2 V c).arrAt_eq_of_cover 3 _ (fun t _ => flushed3_eq V c t) cover3

end Cert.KernelIdeal.Region2

end
-- ==== Proof.KernelValue.lean ====
/-
  The program's two results as functions of its arguments. The run ends with every buffer at the last boundary's
  contents, a fold through the program: host operations, then the first region's write-backs, host operations again,
  then the second and the third region's write-backs. Read backwards from the two result arrays:
  the context result is the third region's output over the context rows, the transposed context weights and the bias
  row, all three untouched since the first stretch of host operations made them; the node result is the second region's
  output over the node rows, the three aggregated message arrays — each a scatter-add, by the stored segment ids, of a
  message array the first region wrote over gathered rows — and the transposed weights and bias rows. With each region's
  output array known as one function of the region's operands, and a transposed weight matrix and a bias cast to one
  row read back as the weights and the bias, both results are expressions in `affine` and `edge` over the arguments,
  the gathers and the scatter-adds left as they stand.
-/
import proofs.«106174_j13804024889951_1_alg».proof.Proof.KernelRun
import proofs.«106174_j13804024889951_1_alg».proof.Proof.Region0
import proofs.«106174_j13804024889951_1_alg».proof.Proof.Region1
import proofs.«106174_j13804024889951_1_alg».proof.Proof.Region2
import Idealize.ShloMosaic.Lib.StableHlo.Run

set_option maxRecDepth 16384

noncomputable section

namespace Cert.KernelIdeal.Result

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

-- argument `b`'s array as launched, on core `c`
set_option quotPrecheck false in
local notation:max "𝔸[" b "]" => m ((c : Thread nD τ).loc b)

/-! ## The functions the two results are built from -/

/-- The index array a gather takes: a negative index has the axis length `n` added, then the indices stand as a column. -/
def normIdx (n : BitVec 32) (e : IVec S1000000 32) : IVec S1000000x1 32 :=
  broadcastInDim S1000000x1 ![0] bcast_S1000000_S1000000x1_0
    (select (cmpi .slt e (broadcastInDim S1000000 ![] bcast_S_S1000000 (constantI S_ 32 0#32)))
      (addi e (broadcastInDim S1000000 ![] bcast_S_S1000000 (constantI S_ 32 n))) e)

/-- The rows of a 100000-row array at a million indices. -/
def take100k (x : FVec Ideal S100000x64 .f32) (e : IVec S1000000 32) : FVec Ideal S1000000x64 .f32 :=
  Host.gather gather_S100000x64_S1000000x1_S1000000x64_1_0_n_n_0_1_164 x (normIdx 100000#32 e)

/-- The rows of a 50000-row array at a million indices. -/
def take50k (x : FVec Ideal S50000x64 .f32) (e : IVec S1000000 32) : FVec Ideal S1000000x64 .f32 :=
  Host.gather gather_S50000x64_S1000000x1_S1000000x64_1_0_n_n_0_1_164 x (normIdx 50000#32 e)

/-- A million rows added into 100000 segments by their segment ids, from zero. -/
def segSum (ids : IVec S1000000 32) (u : FVec Ideal S1000000x64 .f32) : FVec Ideal S100000x64 .f32 :=
  Host.scatterAdd scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 ids) u

/-- The forward edges' messages: the source rows gathered, transformed, positive part. -/
def msg1 : FVec Ideal S1000000x64 .f32 :=
  Cert.Spec.edge (M := 1000000) (take100k 𝔸[main_arg0] 𝔸[main_arg2]) 𝔸[main_arg12] 𝔸[main_arg13]

/-- The backward edges' messages. -/
def msg2 : FVec Ideal S1000000x64 .f32 :=
  Cert.Spec.edge (M := 1000000) (take100k 𝔸[main_arg0] 𝔸[main_arg5]) 𝔸[main_arg14] 𝔸[main_arg15]

/-- The context edges' messages. -/
def msg3 : FVec Ideal S1000000x64 .f32 :=
  Cert.Spec.edge (M := 1000000) (take50k 𝔸[main_arg1] 𝔸[main_arg6]) 𝔸[main_arg16] 𝔸[main_arg17]

/-- The node result: the self-loop features plus the three aggregated messages, projected. -/
def outX : FVec Ideal S100000x64 .f32 :=
  Cert.Spec.affine (M := 100000)
    (addf (addf (addf (Cert.Spec.edge (M := 100000) 𝔸[main_arg0] 𝔸[main_arg8] 𝔸[main_arg9])
      (segSum 𝔸[main_arg3] (msg1 m c))) (segSum 𝔸[main_arg4] (msg2 m c))) (segSum 𝔸[main_arg7] (msg3 m c)))
    𝔸[main_arg18] 𝔸[main_arg19]

/-- The context result. -/
def outC : FVec Ideal S50000x64 .f32 :=
  Cert.Spec.edge (M := 50000) 𝔸[main_arg1] 𝔸[main_arg10] 𝔸[main_arg11]

/-! ## At the first region's entry: what the first stretch of host operations made -/

theorem e0_v6 : V1 m ρ c main_v6 = take100k 𝔸[main_arg0] 𝔸[main_arg2] := by
  show StableHlo.after hostOps0 (W0 m ρ c) (Proc.devRef .tc main_v6) = _
  after_results_simp <;> rfl

theorem e0_v13 : V1 m ρ c main_v13 = take100k 𝔸[main_arg0] 𝔸[main_arg5] := by
  show StableHlo.after hostOps0 (W0 m ρ c) (Proc.devRef .tc main_v13) = _
  after_results_simp <;> rfl

theorem e0_v20 : V1 m ρ c main_v20 = take50k 𝔸[main_arg1] 𝔸[main_arg6] := by
  show StableHlo.after hostOps0 (W0 m ρ c) (Proc.devRef .tc main_v20) = _
  after_results_simp <;> rfl

theorem e0_v21 : V1 m ρ c main_v21 = transpose S64x64 [1, 0] 𝔸[main_arg12] transposes_S64x64_S64x64_1_0 := by
  show StableHlo.after hostOps0 (W0 m ρ c) (Proc.devRef .tc main_v21) = _
  after_results_simp <;> rfl

theorem e0_v22 : V1 m ρ c main_v22 = transpose S64x64 [1, 0] 𝔸[main_arg14] transposes_S64x64_S64x64_1_0 := by
  show StableHlo.after hostOps0 (W0 m ρ c) (Proc.devRef .tc main_v22) = _
  after_results_simp <;> rfl

theorem e0_v23 : V1 m ρ c main_v23 = transpose S64x64 [1, 0] 𝔸[main_arg16] transposes_S64x64_S64x64_1_0 := by
  show StableHlo.after hostOps0 (W0 m ρ c) (Proc.devRef .tc main_v23) = _
  after_results_simp <;> rfl

theorem e0_v24 : V1 m ρ c main_v24 = transpose S64x64 [1, 0] 𝔸[main_arg8] transposes_S64x64_S64x64_1_0 := by
  show StableHlo.after hostOps0 (W0 m ρ c) (Proc.devRef .tc main_v24) = _
  after_results_simp <;> rfl

theorem e0_v25 : V1 m ρ c main_v25 = transpose S64x64 [1, 0] 𝔸[main_arg18] transposes_S64x64_S64x64_1_0 := by
  show StableHlo.after hostOps0 (W0 m ρ c) (Proc.devRef .tc main_v25) = _
  after_results_simp <;> rfl

theorem e0_v26 : V1 m ρ c main_v26 = transpose S64x64 [1, 0] 𝔸[main_arg10] transposes_S64x64_S64x64_1_0 := by
  show StableHlo.after hostOps0 (W0 m ρ c) (Proc.devRef .tc main_v26) = _
  after_results_simp <;> rfl

theorem e0_v27 : V1 m ρ c main_v27 = shapeCast S1x64 𝔸[main_arg13] shapeCasts_S64_S1x64 := by
  show StableHlo.after hostOps0 (W0 m ρ c) (Proc.devRef .tc main_v27) = _
  after_results_simp <;> rfl

theorem e0_v28 : V1 m ρ c main_v28 = shapeCast S1x64 𝔸[main_arg15] shapeCasts_S64_S1x64 := by
  show StableHlo.after hostOps0 (W0 m ρ c) (Proc.devRef .tc main_v28) = _
  after_results_simp <;> rfl

theorem e0_v29 : V1 m ρ c main_v29 = shapeCast S1x64 𝔸[main_arg17] shapeCasts_S64_S1x64 := by
  show StableHlo.after hostOps0 (W0 m ρ c) (Proc.devRef .tc main_v29) = _
  after_results_simp <;> rfl

theorem e0_v30 : V1 m ρ c main_v30 = shapeCast S1x64 𝔸[main_arg9] shapeCasts_S64_S1x64 := by
  show StableHlo.after hostOps0 (W0 m ρ c) (Proc.devRef .tc main_v30) = _
  after_results_simp <;> rfl

theorem e0_v31 : V1 m ρ c main_v31 = shapeCast S1x64 𝔸[main_arg19] shapeCasts_S64_S1x64 := by
  show StableHlo.after hostOps0 (W0 m ρ c) (Proc.devRef .tc main_v31) = _
  after_results_simp <;> rfl

theorem e0_v32 : V1 m ρ c main_v32 = shapeCast S1x64 𝔸[main_arg11] shapeCasts_S64_S1x64 := by
  show StableHlo.after hostOps0 (W0 m ρ c) (Proc.devRef .tc main_v32) = _
  after_results_simp <;> rfl

theorem e0_arg0 : V1 m ρ c main_arg0 = 𝔸[main_arg0] := by
  show StableHlo.after hostOps0 (W0 m ρ c) (Proc.devRef .tc main_arg0) = _
  after_results_simp <;> rfl

theorem e0_arg1 : V1 m ρ c main_arg1 = 𝔸[main_arg1] := by
  show StableHlo.after hostOps0 (W0 m ρ c) (Proc.devRef .tc main_arg1) = _
  after_results_simp <;> rfl

theorem e0_arg3 : V1 m ρ c main_arg3 = 𝔸[main_arg3] := by
  show StableHlo.after hostOps0 (W0 m ρ c) (Proc.devRef .tc main_arg3) = _
  after_results_simp <;> rfl

theorem e0_arg4 : V1 m ρ c main_arg4 = 𝔸[main_arg4] := by
  show StableHlo.after hostOps0 (W0 m ρ c) (Proc.devRef .tc main_arg4) = _
  after_results_simp <;> rfl

theorem e0_arg7 : V1 m ρ c main_arg7 = 𝔸[main_arg7] := by
  show StableHlo.after hostOps0 (W0 m ρ c) (Proc.devRef .tc main_arg7) = _
  after_results_simp <;> rfl

/-! ## At the first region's exit: its three message arrays, everything else as entered -/

theorem x0_m1 : W2 m ρ c (Proc.devRef .tc main_v33_0) = msg1 m c :=
  (W2_arr m ρ c 9).trans ((Cert.KernelIdeal.Region0.arr9 (V1 m ρ) c).trans (by
    rw [e0_v6 m ρ c, e0_v21 m ρ c, e0_v27 m ρ c]
    exact Cert.Spec.edgeK_eq _ _ _ _ _))

theorem x0_m2 : W2 m ρ c (Proc.devRef .tc main_v33_1) = msg2 m c :=
  (W2_arr m ρ c 10).trans ((Cert.KernelIdeal.Region0.arr10 (V1 m ρ) c).trans (by
    rw [e0_v13 m ρ c, e0_v22 m ρ c, e0_v28 m ρ c]
    exact Cert.Spec.edgeK_eq _ _ _ _ _))

theorem x0_m3 : W2 m ρ c (Proc.devRef .tc main_v33_2) = msg3 m c :=
  (W2_arr m ρ c 11).trans ((Cert.KernelIdeal.Region0.arr11 (V1 m ρ) c).trans (by
    rw [e0_v20 m ρ c, e0_v23 m ρ c, e0_v29 m ρ c]
    exact Cert.Spec.edgeK_eq _ _ _ _ _))

theorem x0_arg0 : W2 m ρ c (Proc.devRef .tc main_arg0) = 𝔸[main_arg0] :=
  (W2_of_ne m ρ c main_arg0 (by decide)).trans (e0_arg0 m ρ c)
theorem x0_arg1 : W2 m ρ c (Proc.devRef .tc main_arg1) = 𝔸[main_arg1] :=
  (W2_of_ne m ρ c main_arg1 (by decide)).trans (e0_arg1 m ρ c)
theorem x0_arg3 : W2 m ρ c (Proc.devRef .tc main_arg3) = 𝔸[main_arg3] :=
  (W2_of_ne m ρ c main_arg3 (by decide)).trans (e0_arg3 m ρ c)
theorem x0_arg4 : W2 m ρ c (Proc.devRef .tc main_arg4) = 𝔸[main_arg4] :=
  (W2_of_ne m ρ c main_arg4 (by decide)).trans (e0_arg4 m ρ c)
theorem x0_arg7 : W2 m ρ c (Proc.devRef .tc main_arg7) = 𝔸[main_arg7] :=
  (W2_of_ne m ρ c main_arg7 (by decide)).trans (e0_arg7 m ρ c)
theorem x0_v24 : W2 m ρ c (Proc.devRef .tc main_v24) = transpose S64x64 [1, 0] 𝔸[main_arg8] transposes_S64x64_S64x64_1_0 :=
  (W2_of_ne m ρ c main_v24 (by decide)).trans (e0_v24 m ρ c)
theorem x0_v25 : W2 m ρ c (Proc.devRef .tc main_v25) = transpose S64x64 [1, 0] 𝔸[main_arg18] transposes_S64x64_S64x64_1_0 :=
  (W2_of_ne m ρ c main_v25 (by decide)).trans (e0_v25 m ρ c)
theorem x0_v26 : W2 m ρ c (Proc.devRef .tc main_v26) = transpose S64x64 [1, 0] 𝔸[main_arg10] transposes_S64x64_S64x64_1_0 :=
  (W2_of_ne m ρ c main_v26 (by decide)).trans (e0_v26 m ρ c)
theorem x0_v30 : W2 m ρ c (Proc.devRef .tc main_v30) = shapeCast S1x64 𝔸[main_arg9] shapeCasts_S64_S1x64 :=
  (W2_of_ne m ρ c main_v30 (by decide)).trans (e0_v30 m ρ c)
theorem x0_v31 : W2 m ρ c (Proc.devRef .tc main_v31) = shapeCast S1x64 𝔸[main_arg19] shapeCasts_S64_S1x64 :=
  (W2_of_ne m ρ c main_v31 (by decide)).trans (e0_v31 m ρ c)
theorem x0_v32 : W2 m ρ c (Proc.devRef .tc main_v32) = shapeCast S1x64 𝔸[main_arg11] shapeCasts_S64_S1x64 :=
  (W2_of_ne m ρ c main_v32 (by decide)).trans (e0_v32 m ρ c)

/-! ## At the second region's entry: the three scatter-adds made, everything else as the first region left it -/

theorem e1_v36 : V3 m ρ c main_v36 = segSum 𝔸[main_arg3] (msg1 m c) := by
  have h : V3 m ρ c main_v36 = segSum (W2 m ρ c (Proc.devRef .tc main_arg3)) (W2 m ρ c (Proc.devRef .tc main_v33_0)) := by
    show StableHlo.after hostOps1 (W2 m ρ c) (Proc.devRef .tc main_v36) = _
    after_results_simp <;> rfl
  rw [h, x0_arg3 m ρ c, x0_m1 m ρ c]

theorem e1_v39 : V3 m ρ c main_v39 = segSum 𝔸[main_arg4] (msg2 m c) := by
  have h : V3 m ρ c main_v39 = segSum (W2 m ρ c (Proc.devRef .tc main_arg4)) (W2 m ρ c (Proc.devRef .tc main_v33_1)) := by
    show StableHlo.after hostOps1 (W2 m ρ c) (Proc.devRef .tc main_v39) = _
    after_results_simp <;> rfl
  rw [h, x0_arg4 m ρ c, x0_m2 m ρ c]

theorem e1_v42 : V3 m ρ c main_v42 = segSum 𝔸[main_arg7] (msg3 m c) := by
  have h : V3 m ρ c main_v42 = segSum (W2 m ρ c (Proc.devRef .tc main_arg7)) (W2 m ρ c (Proc.devRef .tc main_v33_2)) := by
    show StableHlo.after hostOps1 (W2 m ρ c) (Proc.devRef .tc main_v42) = _
    after_results_simp <;> rfl
  rw [h, x0_arg7 m ρ c, x0_m3 m ρ c]

theorem e1_arg0 : V3 m ρ c main_arg0 = 𝔸[main_arg0] := by
  refine Eq.trans ?_ (x0_arg0 m ρ c)
  show StableHlo.after hostOps1 (W2 m ρ c) (Proc.devRef .tc main_arg0) = _
  after_results_simp <;> rfl

theorem e1_arg1 : V3 m ρ c main_arg1 = 𝔸[main_arg1] := by
  refine Eq.trans ?_ (x0_arg1 m ρ c)
  show StableHlo.after hostOps1 (W2 m ρ c) (Proc.devRef .tc main_arg1) = _
  after_results_simp <;> rfl

theorem e1_v24 : V3 m ρ c main_v24 = transpose S64x64 [1, 0] 𝔸[main_arg8] transposes_S64x64_S64x64_1_0 := by
  refine Eq.trans ?_ (x0_v24 m ρ c)
  show StableHlo.after hostOps1 (W2 m ρ c) (Proc.devRef .tc main_v24) = _
  after_results_simp <;> rfl

theorem e1_v25 : V3 m ρ c main_v25 = transpose S64x64 [1, 0] 𝔸[main_arg18] transposes_S64x64_S64x64_1_0 := by
  refine Eq.trans ?_ (x0_v25 m ρ c)
  show StableHlo.after hostOps1 (W2 m ρ c) (Proc.devRef .tc main_v25) = _
  after_results_simp <;> rfl

theorem e1_v26 : V3 m ρ c main_v26 = transpose S64x64 [1, 0] 𝔸[main_arg10] transposes_S64x64_S64x64_1_0 := by
  refine Eq.trans ?_ (x0_v26 m ρ c)
  show StableHlo.after hostOps1 (W2 m ρ c) (Proc.devRef .tc main_v26) = _
  after_results_simp <;> rfl

theorem e1_v30 : V3 m ρ c main_v30 = shapeCast S1x64 𝔸[main_arg9] shapeCasts_S64_S1x64 := by
  refine Eq.trans ?_ (x0_v30 m ρ c)
  show StableHlo.after hostOps1 (W2 m ρ c) (Proc.devRef .tc main_v30) = _
  after_results_simp <;> rfl

theorem e1_v31 : V3 m ρ c main_v31 = shapeCast S1x64 𝔸[main_arg19] shapeCasts_S64_S1x64 := by
  refine Eq.trans ?_ (x0_v31 m ρ c)
  show StableHlo.after hostOps1 (W2 m ρ c) (Proc.devRef .tc main_v31) = _
  after_results_simp <;> rfl

theorem e1_v32 : V3 m ρ c main_v32 = shapeCast S1x64 𝔸[main_arg11] shapeCasts_S64_S1x64 := by
  refine Eq.trans ?_ (x0_v32 m ρ c)
  show StableHlo.after hostOps1 (W2 m ρ c) (Proc.devRef .tc main_v32) = _
  after_results_simp <;> rfl

/-! ## At the second region's exit: the node result -/

theorem x1_out : W4 m ρ c (Proc.devRef .tc main_v43) = outX m c :=
  (W4_arr m ρ c 8).trans ((Cert.KernelIdeal.Region1.arr8 (V3 m ρ) c).trans (by
    unfold Cert.KernelIdeal.Region1.aggA
    rw [e1_arg0 m ρ c, e1_v24 m ρ c, e1_v30 m ρ c, e1_v36 m ρ c, e1_v39 m ρ c, e1_v42 m ρ c, e1_v25 m ρ c, e1_v31 m ρ c]
    rw [Cert.Spec.edgeK_eq, Cert.Spec.affineK_eq]
    rfl))

/-! ## At the third region's entry, and its exit: the context result -/

theorem e2_arg1 : V4 m ρ c main_arg1 = 𝔸[main_arg1] :=
  (W4_of_ne m ρ c main_arg1 (by decide)).trans (e1_arg1 m ρ c)
theorem e2_v26 : V4 m ρ c main_v26 = transpose S64x64 [1, 0] 𝔸[main_arg10] transposes_S64x64_S64x64_1_0 :=
  (W4_of_ne m ρ c main_v26 (by decide)).trans (e1_v26 m ρ c)
theorem e2_v32 : V4 m ρ c main_v32 = shapeCast S1x64 𝔸[main_arg11] shapeCasts_S64_S1x64 :=
  (W4_of_ne m ρ c main_v32 (by decide)).trans (e1_v32 m ρ c)

theorem x2_ctx : W5 m ρ c (Proc.devRef .tc main_v44) = outC m c :=
  (W5_arr m ρ c 3).trans ((Cert.KernelIdeal.Region2.arr3 (V4 m ρ) c).trans (by
    rw [e2_arg1 m ρ c, e2_v26 m ρ c, e2_v32 m ρ c]
    exact Cert.Spec.edgeK_eq _ _ _ _ _))

theorem x2_out : W5 m ρ c (Proc.devRef .tc main_v43) = outX m c :=
  (W5_of_ne m ρ c main_v43 (by decide)).trans (x1_out m ρ c)

end Cert.KernelIdeal.Result

end
-- ==== Proof.RefValue.lean ====
/-
  The reference's two results as the same functions of the arguments. The reference program is host operations only,
  and its run ends with each result at the operations' composed term. In that term every linear layer is spelled the
  host's way — a product with the transposed weights, the bias broadcast to a row and down the rows, the positive part
  as a maximum against a broadcast zero — and each such stretch is the array `affine` or `edge` of the specification,
  whatever its operand is; so the term rewrites, layer by layer from the inside out, into the expression the kernel's
  results were brought to, the gathers and the scatter-adds untouched.
-/
import proofs.«106174_j13804024889951_1_alg».proof.Proof.Gen.ReferenceIdeal.Run
import proofs.«106174_j13804024889951_1_alg».proof.Proof.Spec

set_option maxRecDepth 16384

noncomputable section

namespace Cert.ReferenceIdeal.RefValue

open Cert.ReferenceIdeal Cert.ReferenceIdeal.Gen Cert.ReferenceIdeal.Value Idealize.ShloMosaic Idealize.ShloMosaic.TcCoe Idealize.SL.Sem Idealize.ShloMosaic.StableHlo

variable (m : (ℓ : Loc nD τ sig) → Buf (Elt Ideal) ℓ) (c : Dev nD)

-- argument `b`'s array as launched, on core `c`
set_option quotPrecheck false in
local notation:max "𝔸[" b "]" => m ((c.tc : Thread nD τ).loc b)

/-! ## The functions the two results are built from -/

/-- The index array a gather takes: a negative index has the axis length `n` added, then the indices stand as a column. -/
def normIdx (n : BitVec 32) (e : IVec S1000000 32) : IVec S1000000x1 32 :=
  broadcastInDim S1000000x1 ![0] bcast_S1000000_S1000000x1_0
    (select (cmpi .slt e (broadcastInDim S1000000 ![] bcast_S_S1000000 (constantI S_ 32 0#32)))
      (addi e (broadcastInDim S1000000 ![] bcast_S_S1000000 (constantI S_ 32 n))) e)

/-- The rows of a 100000-row array at a million indices. -/
def take100k (x : FVec Ideal S100000x64 .f32) (e : IVec S1000000 32) : FVec Ideal S1000000x64 .f32 :=
  Host.gather gather_S100000x64_S1000000x1_S1000000x64_1_0_n_n_0_1_164 x (normIdx 100000#32 e)

/-- The rows of a 50000-row array at a million indices. -/
def take50k (x : FVec Ideal S50000x64 .f32) (e : IVec S1000000 32) : FVec Ideal S1000000x64 .f32 :=
  Host.gather gather_S50000x64_S1000000x1_S1000000x64_1_0_n_n_0_1_164 x (normIdx 50000#32 e)

/-- A million rows added into 100000 segments by their segment ids, from zero. -/
def segSum (ids : IVec S1000000 32) (u : FVec Ideal S1000000x64 .f32) : FVec Ideal S100000x64 .f32 :=
  Host.scatterAdd scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 ids) u

/-- The forward edges' messages: the source rows gathered, transformed, positive part. -/
def msg1 : FVec Ideal S1000000x64 .f32 :=
  Cert.Spec.edge (M := 1000000) (take100k 𝔸[main_arg0] 𝔸[main_arg2]) 𝔸[main_arg12] 𝔸[main_arg13]

/-- The backward edges' messages. -/
def msg2 : FVec Ideal S1000000x64 .f32 :=
  Cert.Spec.edge (M := 1000000) (take100k 𝔸[main_arg0] 𝔸[main_arg5]) 𝔸[main_arg14] 𝔸[main_arg15]

/-- The context edges' messages. -/
def msg3 : FVec Ideal S1000000x64 .f32 :=
  Cert.Spec.edge (M := 1000000) (take50k 𝔸[main_arg1] 𝔸[main_arg6]) 𝔸[main_arg16] 𝔸[main_arg17]

/-- The node result: the self-loop features plus the three aggregated messages, projected. -/
def outX : FVec Ideal S100000x64 .f32 :=
  Cert.Spec.affine (M := 100000)
    (addf (addf (addf (Cert.Spec.edge (M := 100000) 𝔸[main_arg0] 𝔸[main_arg8] 𝔸[main_arg9])
      (segSum 𝔸[main_arg3] (msg1 m c))) (segSum 𝔸[main_arg4] (msg2 m c))) (segSum 𝔸[main_arg7] (msg3 m c)))
    𝔸[main_arg18] 𝔸[main_arg19]

/-- The context result. -/
def outC : FVec Ideal S50000x64 .f32 :=
  Cert.Spec.edge (M := 50000) 𝔸[main_arg1] 𝔸[main_arg10] 𝔸[main_arg11]

/-! ## The reference's terms are these functions -/

/-- The context result's term, over any operands. -/
theorem ctx_term (X : FVec Ideal S50000x64 .f32) (W : FVec Ideal S64x64 .f32) (b : FVec Ideal S64 .f32) :
    maximumf (addf (Host.dotGeneral dot_S50000x64_S64x64_S50000x64_1_0_0_1_n_n none X (transpose S64x64 [1, 0] W transposes_S64x64_S64x64_1_0))
        (broadcastInDim S50000x64 ![0, 1] bcast_S1x64_S50000x64_0_1 (broadcastInDim S1x64 ![1] bcast_S64_S1x64_1 b)))
      (broadcastInDim S50000x64 ![] bcast_S_S50000x64 (constant (F := Ideal) S_ .f32 0x00000000#32))
      = Cert.Spec.edge (M := 50000) X W b :=
  Cert.Spec.host_edge _ rfl _ _ _ _ X W b

/-- The node result's term is `outX`. -/
theorem ref_out : res_main_v61 (F := Ideal) m c = outX m c := by
  unfold res_main_v61 outX msg1 msg2 msg3 segSum take100k take50k normIdx
  simp only [Cert.Spec.host_edge dot_S1000000x64_S64x64_S1000000x64_1_0_0_1_n_n rfl,
    Cert.Spec.host_edge dot_S100000x64_S64x64_S100000x64_1_0_0_1_n_n rfl]
  simp only [Cert.Spec.host_affine dot_S100000x64_S64x64_S100000x64_1_0_0_1_n_n rfl]

end Cert.ReferenceIdeal.RefValue

end
-- ==== Proof.lean ====
/-
  A message-passing layer over a graph with node features `x`, context features `c` and three edge types: each
  edge type gathers its source rows, applies a linear map with bias and keeps the positive part, and the million
  messages are added into their destination nodes; the node result is a last linear map of the self-loop features
  plus the three aggregated messages, and the context result is the positive part of one linear map of the context rows.
  The kernel does the gathers and the scatter-adds on the host exactly as the reference does and runs the linear
  layers in three pipelined regions over blocks of 10000 rows; the reference is host operations only.
  The frames of the two kernel programs are the generated frame certificates; the reference's frame is its generated
  run with the results dropped; the idealization rewrote nothing, so `preserves` is trivial. For the value claim both
  programs' results are brought to ONE expression in the arguments — `affine` and `edge` of the specification around the
  same gathers and scatter-adds: the kernel's by reading the last boundary's contents back through the regions and the
  host stretches, the reference's by rewriting its composed term layer by layer — and the arguments agree by
  hypothesis. Only re-indexing of finite sums joins a block product on the device to the host's product, so the
  finiteness of the inputs is never used.
-/
import proofs.«106174_j13804024889951_1_alg».proof.Defs
import proofs.«106174_j13804024889951_1_alg».proof.Proof.Gen.Kernel
import proofs.«106174_j13804024889951_1_alg».proof.Proof.Gen.Kernel.Skeleton
import proofs.«106174_j13804024889951_1_alg».proof.Proof.Gen.Kernel.Launch
import proofs.«106174_j13804024889951_1_alg».proof.Proof.Gen.Kernel.Points
import proofs.«106174_j13804024889951_1_alg».proof.Proof.Gen.Kernel.Frame
import proofs.«106174_j13804024889951_1_alg».proof.Proof.Gen.KernelIdeal
import proofs.«106174_j13804024889951_1_alg».proof.Proof.Gen.KernelIdeal.Frame
import proofs.«106174_j13804024889951_1_alg».proof.Proof.Gen.ReferenceIdeal
import proofs.«106174_j13804024889951_1_alg».proof.Proof.Gen.ReferenceIdeal.Run
import proofs.«106174_j13804024889951_1_alg».proof.Proof.Gen.Pre_finite_inputs
import proofs.«106174_j13804024889951_1_alg».proof.Proof.KernelValue
import proofs.«106174_j13804024889951_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments alone: the generated frame certificate. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments alone: its generated run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the node result at `outX` and the context result at `outC` of the arguments, which agree. -/
theorem algebraic : Cert.algebraic_KernelIdeal_ReferenceIdeal := by
  intro m ρ m' ρ' _ hagree
  refine ⟨fun c => Cert.KernelIdeal.Result.outX m c, fun c => Cert.KernelIdeal.Result.outC m c, ?_, ?_⟩
  · exact (θ_run Cert.KernelIdeal.defs _ _).mono
      (fun r h c => ⟨(h c).1.trans (Cert.KernelIdeal.Result.x2_out m ρ c),
        (h c).2.1.trans (Cert.KernelIdeal.Result.x2_ctx m ρ c), (h c).2.2⟩)
      (Cert.KernelIdeal.Named.run_named m ρ)
  · refine (θ_run Cert.ReferenceIdeal.defs _ _).mono (fun r h c => ⟨(h c).1.trans ?_, (h c).2.1.trans ?_, (h c).2.2⟩)
      (Cert.ReferenceIdeal.Value.run (F := Ideal) m' ρ')
    · -- the node result: the reference's term is its `outX`, which over agreeing arguments is the kernel's
      obtain ⟨h0, h1, h2, h3, h4, h5, h6, h7, h8, h9, h10, h11, h12, h13, h14, h15, h16, h17, h18, h19⟩ := hagree c
      refine (Cert.ReferenceIdeal.RefValue.ref_out m' c).trans ?_
      unfold Cert.ReferenceIdeal.RefValue.outX Cert.ReferenceIdeal.RefValue.msg1 Cert.ReferenceIdeal.RefValue.msg2
        Cert.ReferenceIdeal.RefValue.msg3 Cert.ReferenceIdeal.RefValue.segSum Cert.ReferenceIdeal.RefValue.take100k
        Cert.ReferenceIdeal.RefValue.take50k Cert.ReferenceIdeal.RefValue.normIdx
      rw [h0, h1, h2, h3, h4, h5, h6, h7, h8, h9, h12, h13, h14, h15, h16, h17, h18, h19]
      rfl
    · -- the context result
      obtain ⟨h0, h1, h2, h3, h4, h5, h6, h7, h8, h9, h10, h11, h12, h13, h14, h15, h16, h17, h18, h19⟩ := hagree c
      refine (Cert.ReferenceIdeal.RefValue.ctx_term _ _ _).trans ?_
      rw [h1, h10, h11]
      rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
